-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S50000x8 : Shape := ⟨2, ![50000, 8]⟩
abbrev S100000x10 : Shape := ⟨2, ![100000, 10]⟩
abbrev S400000 : Shape := ⟨1, ![400000]⟩
abbrev S4000000 : Shape := ⟨1, ![4000000]⟩
abbrev S10x16 : Shape := ⟨2, ![10, 16]⟩
abbrev S16 : Shape := ⟨1, ![16]⟩
abbrev S8x16 : Shape := ⟨2, ![8, 16]⟩
abbrev S48x64 : Shape := ⟨2, ![48, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S50000x8 : S_.BroadcastsInDim S50000x8 (![] : Fin 0 → Fin S50000x8.rank)
  reducesTo_S50000x8_S_d0_1 : S50000x8.ReducesTo [0, 1] S_
  bcast_S_S100000x10 : S_.BroadcastsInDim S100000x10 (![] : Fin 0 → Fin S100000x10.rank)
  reducesTo_S100000x10_S_d0_1 : S100000x10.ReducesTo [0, 1] S_
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S1 .f32) (main_v63 : IVec S_ 1) (main_v67 : IVec S_ 1) : IVec S_ 1 :=
  let main_v68 : IVec S_ 1 := andi main_v63 main_v67
  let main_v69 : FVec F S1 .f32 := Host.absf main_arg18
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg15 : FVec F S64x64 .f32) (main_arg16 : FVec F S64 .f32) (main_arg17 : FVec F S64x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg17
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg18 main_v63 main_v67

def fn_part2 {F : FTy → Type} [FloatOps F] (main_arg11 : FVec F S10x16 .f32) (main_arg12 : FVec F S16 .f32) (main_arg13 : FVec F S48x64 .f32) (main_arg14 : FVec F S64 .f32) (main_arg15 : FVec F S64x64 .f32) (main_arg16 : FVec F S64 .f32) (main_arg17 : FVec F S64x1 .f32) (main_arg18 : FVec F S1 .f32) (main_v33 : IVec S_ 1) : IVec S_ 1 :=
  let main_v34 : FVec F S10x16 .f32 := Host.absf main_arg11
  let main_cst_12 : FVec F S_ .f32 := constant S_ .f32 0x7F800000#32
  let main_v35 : FVec F S10x16 .f32 := broadcastInDim S10x16 ![] bcast_S_S10x16 main_cst_12
  let main_v36 : IVec S10x16 1 := cmpf .olt main_v34 main_v35
  let main_c_13 : IVec S_ 1 := constantI S_ 1 1#1
  let main_v37 : IVec S_ 1 := (fun x v => Host.reduce IntOp.andi x v reducesTo_S10x16_S_d0_1 h_S_) main_v36 main_c_13
  let main_v38 : IVec S_ 1 := andi main_v33 main_v37
  let main_v39 : FVec F S16 .f32 := Host.absf main_arg12
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S48x64 .f32 := Host.absf main_arg13
  let main_cst_16 : FVec F S_ .f32 := constant S_ .f32 0x7F800000#32
  let main_v45 : FVec F S48x64 .f32 := broadcastInDim S48x64 ![] bcast_S_S48x64 main_cst_16
  let main_v46 : IVec S48x64 1 := cmpf .olt main_v44 main_v45
  let main_c_17 : IVec S_ 1 := constantI S_ 1 1#1
  let main_v47 : IVec S_ 1 := (fun x v => Host.reduce IntOp.andi x v reducesTo_S48x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_v48 main_v49 main_v50

def fn_part1 {F : FTy → Type} [FloatOps F] (main_arg8 : FVec F S16 .f32) (main_arg9 : FVec F S8x16 .f32) (main_arg10 : FVec F S16 .f32) (main_arg11 : FVec F S10x16 .f32) (main_arg12 : FVec F S16 .f32) (main_arg13 : FVec F S48x64 .f32) (main_arg14 : FVec F S64 .f32) (main_arg15 : FVec F S64x64 .f32) (main_arg16 : FVec F S64 .f32) (main_arg17 : FVec F S64x1 .f32) (main_arg18 : FVec F S1 .f32) (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  let main_v19 : FVec F S16 .f32 := Host.absf main_arg8
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S8x16 .f32 := Host.absf main_arg9
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S16 .f32 := Host.absf main_arg10
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S200000x10 .f32) (main_arg1 : FVec F S50000x8 .f32) (main_arg2 : FVec F S100000x10 .f32) (main_arg3 : IVec S400000 32) (main_arg4 : IVec S400000 32) (main_arg5 : IVec S4000000 32) (main_arg6 : IVec S4000000 32) (main_arg7 : FVec F S10x16 .f32) (main_arg8 : FVec F S16 .f32) (main_arg9 : FVec F S8x16 .f32) (main_arg10 : FVec F S16 .f32) (main_arg11 : FVec F S10x16 .f32) (main_arg12 : FVec F S16 .f32) (main_arg13 : FVec F S48x64 .f32) (main_arg14 : FVec F S64 .f32) (main_arg15 : FVec F S64x64 .f32) (main_arg16 : FVec F S64 .f32) (main_arg17 : FVec F S64x1 .f32) (main_arg18 : FVec F S1 .f32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S50000x8 .f32 := Host.absf main_arg1
  let main_cst_0 : FVec F S_ .f32 := constant S_ .f32 0x7F800000#32
  let main_v5 : FVec F S50000x8 .f32 := broadcastInDim S50000x8 ![] bcast_S_S50000x8 main_cst_0
  let main_v6 : IVec S50000x8 1 := cmpf .olt main_v4 main_v5
  let main_c_1 : IVec S_ 1 := constantI S_ 1 1#1
  let main_v7 : IVec S_ 1 := (fun x v => Host.reduce IntOp.andi x v reducesTo_S50000x8_S_d0_1 h_S_) main_v6 main_c_1
  let main_v8 : IVec S_ 1 := andi main_v3 main_v7
  let main_v9 : FVec F S100000x10 .f32 := Host.absf main_arg2
  let main_cst_2 : FVec F S_ .f32 := constant S_ .f32 0x7F800000#32
  let main_v10 : FVec F S100000x10 .f32 := broadcastInDim S100000x10 ![] bcast_S_S100000x10 main_cst_2
  let main_v11 : IVec S100000x10 1 := cmpf .olt main_v9 main_v10
  let main_c_3 : IVec S_ 1 := constantI S_ 1 1#1
  let main_v12 : IVec S_ 1 := (fun x v => Host.reduce IntOp.andi x v reducesTo_S100000x10_S_d0_1 h_S_) main_v11 main_c_3
  let main_v13 : IVec S_ 1 := andi main_v8 main_v12
  let main_v14 : FVec F S10x16 .f32 := Host.absf main_arg7
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S200000x10 : Shape := ⟨2, ![200000, 10]⟩
abbrev S50000x8 : Shape := ⟨2, ![50000, 8]⟩
abbrev S100000x10 : Shape := ⟨2, ![100000, 10]⟩
abbrev S400000 : Shape := ⟨1, ![400000]⟩
abbrev S4000000 : Shape := ⟨1, ![4000000]⟩
abbrev S10x16 : Shape := ⟨2, ![10, 16]⟩
abbrev S16 : Shape := ⟨1, ![16]⟩
abbrev S8x16 : Shape := ⟨2, ![8, 16]⟩
abbrev S48x64 : Shape := ⟨2, ![48, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x16 : Shape := ⟨2, ![1, 16]⟩
abbrev S200000x16 : Shape := ⟨2, ![200000, 16]⟩
abbrev S10000x10 : Shape := ⟨2, ![10000, 10]⟩
abbrev S10000x16 : Shape := ⟨2, ![10000, 16]⟩
abbrev S50000x16 : Shape := ⟨2, ![50000, 16]⟩
abbrev S10000x8 : Shape := ⟨2, ![10000, 8]⟩
abbrev S100000x16 : Shape := ⟨2, ![100000, 16]⟩
abbrev S_ : Shape := ⟨0, ![]⟩
abbrev S400000x1 : Shape := ⟨2, ![400000, 1]⟩
abbrev S400000x16 : Shape := ⟨2, ![400000, 16]⟩
abbrev S50000x1 : Shape := ⟨2, ![50000, 1]⟩
abbrev S50000x32 : Shape := ⟨2, ![50000, 32]⟩
abbrev S4000000x1 : Shape := ⟨2, ![4000000, 1]⟩
abbrev S4000000x32 : Shape := ⟨2, ![4000000, 32]⟩
abbrev S200000x32 : Shape := ⟨2, ![200000, 32]⟩
abbrev S200000x1 : Shape := ⟨2, ![200000, 1]⟩
abbrev S200000x48 : Shape := ⟨2, ![200000, 48]⟩
abbrev S1x64 : Shape := ⟨2, ![1, 64]⟩
abbrev S1x1 : Shape := ⟨2, ![1, 1]⟩
abbrev S5000x48 : Shape := ⟨2, ![5000, 48]⟩
abbrev S5000x1 : Shape := ⟨2, ![5000, 1]⟩
abbrev S5000x64 : Shape := ⟨2, ![5000, 64]⟩

abbrev nBuf : Space → Nat
  | .hbm => 79
  | .vmem => 28
  | .smem => 0
  | _ => 0

abbrev bufTy : (tb : Table) → Fin (tcTables nBuf tb) → BufTy
  | .hbm, ⟨0, _⟩ => ⟨S200000x10, .f32⟩
  | .hbm, ⟨1, _⟩ => ⟨S50000x8, .f32⟩
  | .hbm, ⟨2, _⟩ => ⟨S100000x10, .f32⟩
  | .hbm, ⟨3, _⟩ => ⟨S400000, .i32⟩
  | .hbm, ⟨4, _⟩ => ⟨S400000, .i32⟩
  | .hbm, ⟨5, _⟩ => ⟨S4000000, .i32⟩
  | .hbm, ⟨6, _⟩ => ⟨S4000000, .i32⟩
  | .hbm, ⟨7, _⟩ => ⟨S10x16, .f32⟩
  | .hbm, ⟨8, _⟩ => ⟨S16, .f32⟩
  | .hbm, ⟨9, _⟩ => ⟨S8x16, .f32⟩
  | .hbm, ⟨10, _⟩ => ⟨S16, .f32⟩
  | .hbm, ⟨11, _⟩ => ⟨S10x16, .f32⟩
  | .hbm, ⟨12, _⟩ => ⟨S16, .f32⟩
  | .hbm, ⟨13, _⟩ => ⟨S48x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S1x16, .f32⟩
  | .hbm, ⟨20, _⟩ => ⟨S200000x16, .f32⟩
  | .hbm, ⟨21, _⟩ => ⟨S1x16, .f32⟩
  | .hbm, ⟨22, _⟩ => ⟨S50000x16, .f32⟩
  | .hbm, ⟨23, _⟩ => ⟨S1x16, .f32⟩
  | .hbm, ⟨24, _⟩ => ⟨S100000x16, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x16, .f32⟩
  | .hbm, ⟨34, _⟩ => ⟨S_, .f32⟩
  | .hbm, ⟨35, _⟩ => ⟨S50000x16, .f32⟩
  | .hbm, ⟨36, _⟩ => ⟨S400000x1, .i32⟩
  | .hbm, ⟨37, _⟩ => ⟨S50000x16, .f32⟩
  | .hbm, ⟨38, _⟩ => ⟨S_, .f32⟩
  | .hbm, ⟨39, _⟩ => ⟨S400000x1, .f32⟩
  | .hbm, ⟨40, _⟩ => ⟨S_, .f32⟩
  | .hbm, ⟨41, _⟩ => ⟨S50000x1, .f32⟩
  | .hbm, ⟨42, _⟩ => ⟨S400000x1, .i32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x16, .f32⟩
  | .hbm, ⟨48, _⟩ => ⟨S50000x16, .f32⟩
  | .hbm, ⟨49, _⟩ => ⟨S50000x32, .f32⟩
  | .hbm, ⟨50, _⟩ => ⟨S_, .i32⟩
  | .hbm, ⟨51, _⟩ => ⟨S4000000, .i32⟩
  | .hbm, ⟨52, _⟩ => ⟨S4000000, .i1⟩
  | .hbm, ⟨53, _⟩ => ⟨S_, .i32⟩
  | .hbm, ⟨54, _⟩ => ⟨S4000000, .i32⟩
  | .hbm, ⟨55, _⟩ => ⟨S4000000, .i32⟩
  | .hbm, ⟨56, _⟩ => ⟨S4000000, .i32⟩
  | .hbm, ⟨57, _⟩ => ⟨S4000000x1, .i32⟩
  | .hbm, ⟨58, _⟩ => ⟨S4000000x32, .f32⟩
  | .hbm, ⟨59, _⟩ => ⟨S_, .f32⟩
  | .hbm, ⟨60, _⟩ => ⟨S200000x32, .f32⟩
  | .hbm, ⟨61, _⟩ => ⟨S4000000x1, .i32⟩
  | .hbm, ⟨62, _⟩ => ⟨S200000x32, .f32⟩
  | .hbm, ⟨63, _⟩ => ⟨S_, .f32⟩
  | .hbm, ⟨64, _⟩ => ⟨S4000000x1, .f32⟩
  | .hbm, ⟨65, _⟩ => ⟨S_, .f32⟩
  | .hbm, ⟨66, _⟩ => ⟨S200000x1, .f32⟩
  | .hbm, ⟨67, _⟩ => ⟨S4000000x1, .i32⟩
  | .hbm, ⟨68, _⟩ => ⟨S200000x1, .f32⟩
  | .hbm, ⟨69, _⟩ => ⟨S_, .f32⟩
  | .hbm, ⟨70, _⟩ => ⟨S200000x1, .f32⟩
  | .hbm, ⟨71, _⟩ => ⟨S200000x1, .f32⟩
  | .hbm, ⟨72, _⟩ => ⟨S200000x32, .f32⟩
  | .hbm, ⟨73, _⟩ => ⟨S200000x32, .f32⟩
  | .hbm, ⟨74, _⟩ => ⟨S200000x48, .f32⟩
  | .hbm, ⟨75, _⟩ => ⟨S1x64, .f32⟩
  | .hbm, ⟨76, _⟩ => ⟨S1x64, .f32⟩
  | .hbm, ⟨77, _⟩ => ⟨S1x1, .f32⟩
  | .hbm, ⟨78, _⟩ => ⟨S200000x1, .f32⟩
  | .local _ .vmem, ⟨0, _⟩ => ⟨S10000x10, .f32⟩
  | .local _ .vmem, ⟨1, _⟩ => ⟨S10000x10, .f32⟩
  | .local _ .vmem, ⟨2, _⟩ => ⟨S10x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x8, .f32⟩
  | .local _ .vmem, ⟨7, _⟩ => ⟨S10000x8, .f32⟩
  | .local _ .vmem, ⟨8, _⟩ => ⟨S8x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S10000x10, .f32⟩
  | .local _ .vmem, ⟨13, _⟩ => ⟨S10000x10, .f32⟩
  | .local _ .vmem, ⟨14, _⟩ => ⟨S10x16, .f32⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | .local _ .vmem, ⟨18, _⟩ => ⟨S5000x48, .f32⟩
  | .local _ .vmem, ⟨19, _⟩ => ⟨S5000x48, .f32⟩
  | .local _ .vmem, ⟨20, _⟩ => ⟨S48x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S48x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S16_S1x16 : S16.ShapeCasts S1x16
  inb_S10000x10_S10000x10_0_0 : ∀ a, (![0, 0] : Fin 2 → Nat) a + S10000x10.size a ≤ S10000x10.size a
  h_S10000x10 : 0 < S10000x10.numel
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  inb_S10000x8_S10000x8_0_0 : ∀ a, (![0, 0] : Fin 2 → Nat) a + S10000x8.size a ≤ S10000x8.size a
  h_S10000x8 : 0 < S10000x8.numel
  inb_S8x16_S8x16_0_0 : ∀ a, (![0, 0] : Fin 2 → Nat) a + S8x16.size a ≤ S8x16.size a
  h_S8x16 : 0 < S8x16.numel
  bcast_S_S400000 : S_.BroadcastsInDim S400000 (![] : Fin 0 → Fin S400000.rank)
  bcast_S400000_S400000x1_0 : S400000.BroadcastsInDim S400000x1 (![0] : Fin 1 → Fin S400000x1.rank)
  bcast_S_S50000x16 : S_.BroadcastsInDim S50000x16 (![] : Fin 0 → Fin S50000x16.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  concatenates_S50000x16_S50000x16_S50000x32_d1 : Shape.Concatenates [S50000x16, S50000x16] S50000x32 1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S200000x32 : S_.BroadcastsInDim S200000x32 (![] : Fin 0 → Fin S200000x32.rank)
  bcast_S_S4000000x1 : S_.BroadcastsInDim S4000000x1 (![] : Fin 0 → Fin S4000000x1.rank)
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  concatenates_S200000x16_S200000x32_S200000x48_d1 : Shape.Concatenates [S200000x16, S200000x32] S200000x48 1
  shapeCasts_S64_S1x64 : S64.ShapeCasts S1x64
  shapeCasts_S1_S1x1 : S1.ShapeCasts S1x1
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  inb_S48x64_S48x64_0_0 : ∀ a, (![0, 0] : Fin 2 → Nat) a + S48x64.size a ≤ S48x64.size a
  h_S48x64 : 0 < S48x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S10000x10_S10x16_S10000x16_1_0_0_1_n_n_wf : DotDims.WF S10000x10 S10x16 S10000x16 [1] [0] [0] [1] [] []
  dot_S10000x8_S8x16_S10000x16_1_0_0_1_n_n_wf : DotDims.WF S10000x8 S8x16 S10000x16 [1] [0] [0] [1] [] []
  gather_S100000x16_S400000x1_S400000x16_1_0_n_n_0_1_116_wf : GatherDims.WF S100000x16 S400000x1 S400000x16 [1] [0] [] [0] [] 1 ![1, 16]
  scatter_S50000x16_S400000x1_S400000x16_1_0_0_1_wf : ScatterDims.WF S50000x16 S400000x1 S400000x16 [1] [0] [0] 1
  scatter_S50000x1_S400000x1_S400000x1_1_0_0_1_wf : ScatterDims.WF S50000x1 S400000x1 S400000x1 [1] [0] [0] 1
  gather_S50000x32_S4000000x1_S4000000x32_1_0_n_n_0_1_132_wf : GatherDims.WF S50000x32 S4000000x1 S4000000x32 [1] [0] [] [0] [] 1 ![1, 32]
  scatter_S200000x32_S4000000x1_S4000000x32_1_0_0_1_wf : ScatterDims.WF S200000x32 S4000000x1 S4000000x32 [1] [0] [0] 1
  scatter_S200000x1_S4000000x1_S4000000x1_1_0_0_1_wf : ScatterDims.WF S200000x1 S4000000x1 S4000000x1 [1] [0] [0] 1
  dot_S5000x48_S48x64_S5000x64_1_0_0_1_n_n_wf : DotDims.WF S5000x48 S48x64 S5000x64 [1] [0] [0] [1] [] []
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S200000x10.size a
  hwx0_0 : ∀ i : grid0.Coords, EltTy.bits .f32 = 32 ∨ (Rect.block (s := S200000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S200000x16.size a
  hwx0_3 : ∀ i : grid0.Coords, EltTy.bits .f32 = 32 ∨ (Rect.block (s := S200000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S50000x8.size a
  hwx1_0 : ∀ i : grid1.Coords, EltTy.bits .f32 = 32 ∨ (Rect.block (s := S50000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S50000x16.size a
  hwx1_3 : ∀ i : grid1.Coords, EltTy.bits .f32 = 32 ∨ (Rect.block (s := S50000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x16.size a ≤ S10x16.size a
  hwx2_1 : ∀ i : grid2.Coords, EltTy.bits .f32 = 32 ∨ (Rect.block (s := S10x16) S10x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x48.size a ≤ S200000x48.size a
  hwx3_0 : ∀ i : grid3.Coords, EltTy.bits .f32 = 32 ∨ (Rect.block (s := S200000x48) S5000x48.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S48x64.size a ≤ S48x64.size a
  hwx3_1 : ∀ i : grid3.Coords, EltTy.bits .f32 = 32 ∨ (Rect.block (s := S48x64) S48x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S200000x1.size a
  hwx3_7 : ∀ i : grid3.Coords, EltTy.bits .f32 = 32 ∨ (Rect.block (s := S200000x1) S5000x1.size (cc3_transform_7 i) (hinb3_7 i)).WholeWords (EltTy.packing .f32)

variable [Facts₀]

def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def dot_S10000x8_S8x16_S10000x16_1_0_0_1_n_n : DotDims S10000x8 S8x16 S10000x16 where
  lhsContracting := [1]
  rhsContracting := [0]
  lhsNonContracting := [0]
  rhsNonContracting := [1]
  lhsBatch := []
  rhsBatch := []
  wf := dot_S10000x8_S8x16_S10000x16_1_0_0_1_n_n_wf
def gather_S100000x16_S400000x1_S400000x16_1_0_n_n_0_1_116 : GatherDims S100000x16 S400000x1 S400000x16 where
  offsetDims := [1]
  collapsedSliceDims := [0]
  operandBatchingDims := []
  startIndicesBatchingDims := []
  startIndexMap := [0]
  indexVectorDim := 1
  sliceSizes := ![1, 16]
  wf := gather_S100000x16_S400000x1_S400000x16_1_0_n_n_0_1_116_wf
def scatter_S50000x16_S400000x1_S400000x16_1_0_0_1 : ScatterDims S50000x16 S400000x1 S400000x16 where
  updateWindowDims := [1]
  insertedWindowDims := [0]
  scatterDimsToOperandDims := [0]
  indexVectorDim := 1
  wf := scatter_S50000x16_S400000x1_S400000x16_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x32_S4000000x1_S4000000x32_1_0_n_n_0_1_132 : GatherDims S50000x32 S4000000x1 S4000000x32 where
  offsetDims := [1]
  collapsedSliceDims := [0]
  operandBatchingDims := []
  startIndicesBatchingDims := []
  startIndexMap := [0]
  indexVectorDim := 1
  sliceSizes := ![1, 32]
  wf := gather_S50000x32_S4000000x1_S4000000x32_1_0_n_n_0_1_132_wf
def scatter_S200000x32_S4000000x1_S4000000x32_1_0_0_1 : ScatterDims S200000x32 S4000000x1 S4000000x32 where
  updateWindowDims := [1]
  insertedWindowDims := [0]
  scatterDimsToOperandDims := [0]
  indexVectorDim := 1
  wf := scatter_S200000x32_S4000000x1_S4000000x32_1_0_0_1_wf
def scatter_S200000x1_S4000000x1_S4000000x1_1_0_0_1 : ScatterDims S200000x1 S4000000x1 S4000000x1 where
  updateWindowDims := [1]
  insertedWindowDims := [0]
  scatterDimsToOperandDims := [0]
  indexVectorDim := 1
  wf := scatter_S200000x1_S4000000x1_S4000000x1_1_0_0_1_wf
def dot_S5000x48_S48x64_S5000x64_1_0_0_1_n_n : DotDims S5000x48 S48x64 S5000x64 where
  lhsContracting := [1]
  rhsContracting := [0]
  lhsNonContracting := [0]
  rhsNonContracting := [1]
  lhsBatch := []
  rhsBatch := []
  wf := dot_S5000x48_S48x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S10x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S48x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x10 : Shape := ⟨2, ![200000, 10]⟩
abbrev S50000x8 : Shape := ⟨2, ![50000, 8]⟩
abbrev S100000x10 : Shape := ⟨2, ![100000, 10]⟩
abbrev S400000 : Shape := ⟨1, ![400000]⟩
abbrev S4000000 : Shape := ⟨1, ![4000000]⟩
abbrev S10x16 : Shape := ⟨2, ![10, 16]⟩
abbrev S16 : Shape := ⟨1, ![16]⟩
abbrev S8x16 : Shape := ⟨2, ![8, 16]⟩
abbrev S48x64 : Shape := ⟨2, ![48, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S200000x16 : Shape := ⟨2, ![200000, 16]⟩
abbrev S1x16 : Shape := ⟨2, ![1, 16]⟩
abbrev S50000x16 : Shape := ⟨2, ![50000, 16]⟩
abbrev S100000x16 : Shape := ⟨2, ![100000, 16]⟩
abbrev S_ : Shape := ⟨0, ![]⟩
abbrev S400000x1 : Shape := ⟨2, ![400000, 1]⟩
abbrev S400000x16 : Shape := ⟨2, ![400000, 16]⟩
abbrev S50000x1 : Shape := ⟨2, ![50000, 1]⟩
abbrev S50000x32 : Shape := ⟨2, ![50000, 32]⟩
abbrev S4000000x1 : Shape := ⟨2, ![4000000, 1]⟩
abbrev S4000000x32 : Shape := ⟨2, ![4000000, 32]⟩
abbrev S200000x32 : Shape := ⟨2, ![200000, 32]⟩
abbrev S200000x1 : Shape := ⟨2, ![200000, 1]⟩
abbrev S200000x48 : Shape := ⟨2, ![200000, 48]⟩
abbrev S200000x64 : Shape := ⟨2, ![200000, 64]⟩
abbrev S1x64 : Shape := ⟨2, ![1, 64]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S50000x8, .f32⟩
  | .hbm, ⟨2, _⟩ => ⟨S100000x10, .f32⟩
  | .hbm, ⟨3, _⟩ => ⟨S400000, .i32⟩
  | .hbm, ⟨4, _⟩ => ⟨S400000, .i32⟩
  | .hbm, ⟨5, _⟩ => ⟨S4000000, .i32⟩
  | .hbm, ⟨6, _⟩ => ⟨S4000000, .i32⟩
  | .hbm, ⟨7, _⟩ => ⟨S10x16, .f32⟩
  | .hbm, ⟨8, _⟩ => ⟨S16, .f32⟩
  | .hbm, ⟨9, _⟩ => ⟨S8x16, .f32⟩
  | .hbm, ⟨10, _⟩ => ⟨S16, .f32⟩
  | .hbm, ⟨11, _⟩ => ⟨S10x16, .f32⟩
  | .hbm, ⟨12, _⟩ => ⟨S16, .f32⟩
  | .hbm, ⟨13, _⟩ => ⟨S48x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S200000x16, .f32⟩
  | .hbm, ⟨20, _⟩ => ⟨S1x16, .f32⟩
  | .hbm, ⟨21, _⟩ => ⟨S200000x16, .f32⟩
  | .hbm, ⟨22, _⟩ => ⟨S200000x16, .f32⟩
  | .hbm, ⟨23, _⟩ => ⟨S200000x16, .f32⟩
  | .hbm, ⟨24, _⟩ => ⟨S50000x16, .f32⟩
  | .hbm, ⟨25, _⟩ => ⟨S1x16, .f32⟩
  | .hbm, ⟨26, _⟩ => ⟨S50000x16, .f32⟩
  | .hbm, ⟨27, _⟩ => ⟨S50000x16, .f32⟩
  | .hbm, ⟨28, _⟩ => ⟨S50000x16, .f32⟩
  | .hbm, ⟨29, _⟩ => ⟨S100000x16, .f32⟩
  | .hbm, ⟨30, _⟩ => ⟨S1x16, .f32⟩
  | .hbm, ⟨31, _⟩ => ⟨S100000x16, .f32⟩
  | .hbm, ⟨32, _⟩ => ⟨S100000x16, .f32⟩
  | .hbm, ⟨33, _⟩ => ⟨S100000x16, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x16, .f32⟩
  | .hbm, ⟨43, _⟩ => ⟨S_, .f32⟩
  | .hbm, ⟨44, _⟩ => ⟨S50000x16, .f32⟩
  | .hbm, ⟨45, _⟩ => ⟨S400000x1, .i32⟩
  | .hbm, ⟨46, _⟩ => ⟨S50000x16, .f32⟩
  | .hbm, ⟨47, _⟩ => ⟨S_, .f32⟩
  | .hbm, ⟨48, _⟩ => ⟨S400000x1, .f32⟩
  | .hbm, ⟨49, _⟩ => ⟨S_, .f32⟩
  | .hbm, ⟨50, _⟩ => ⟨S50000x1, .f32⟩
  | .hbm, ⟨51, _⟩ => ⟨S400000x1, .i32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x16, .f32⟩
  | .hbm, ⟨57, _⟩ => ⟨S50000x16, .f32⟩
  | .hbm, ⟨58, _⟩ => ⟨S50000x32, .f32⟩
  | .hbm, ⟨59, _⟩ => ⟨S_, .i32⟩
  | .hbm, ⟨60, _⟩ => ⟨S4000000, .i32⟩
  | .hbm, ⟨61, _⟩ => ⟨S4000000, .i1⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000x1, .i32⟩
  | .hbm, ⟨67, _⟩ => ⟨S4000000x32, .f32⟩
  | .hbm, ⟨68, _⟩ => ⟨S_, .f32⟩
  | .hbm, ⟨69, _⟩ => ⟨S200000x32, .f32⟩
  | .hbm, ⟨70, _⟩ => ⟨S4000000x1, .i32⟩
  | .hbm, ⟨71, _⟩ => ⟨S200000x32, .f32⟩
  | .hbm, ⟨72, _⟩ => ⟨S_, .f32⟩
  | .hbm, ⟨73, _⟩ => ⟨S4000000x1, .f32⟩
  | .hbm, ⟨74, _⟩ => ⟨S_, .f32⟩
  | .hbm, ⟨75, _⟩ => ⟨S200000x1, .f32⟩
  | .hbm, ⟨76, _⟩ => ⟨S4000000x1, .i32⟩
  | .hbm, ⟨77, _⟩ => ⟨S200000x1, .f32⟩
  | .hbm, ⟨78, _⟩ => ⟨S_, .f32⟩
  | .hbm, ⟨79, _⟩ => ⟨S200000x1, .f32⟩
  | .hbm, ⟨80, _⟩ => ⟨S200000x1, .f32⟩
  | .hbm, ⟨81, _⟩ => ⟨S200000x32, .f32⟩
  | .hbm, ⟨82, _⟩ => ⟨S200000x32, .f32⟩
  | .hbm, ⟨83, _⟩ => ⟨S200000x48, .f32⟩
  | .hbm, ⟨84, _⟩ => ⟨S200000x64, .f32⟩
  | .hbm, ⟨85, _⟩ => ⟨S1x64, .f32⟩
  | .hbm, ⟨86, _⟩ => ⟨S200000x64, .f32⟩
  | .hbm, ⟨87, _⟩ => ⟨S200000x64, .f32⟩
  | .hbm, ⟨88, _⟩ => ⟨S200000x64, .f32⟩
  | .hbm, ⟨89, _⟩ => ⟨S200000x64, .f32⟩
  | .hbm, ⟨90, _⟩ => ⟨S1x64, .f32⟩
  | .hbm, ⟨91, _⟩ => ⟨S200000x64, .f32⟩
  | .hbm, ⟨92, _⟩ => ⟨S200000x64, .f32⟩
  | .hbm, ⟨93, _⟩ => ⟨S200000x64, .f32⟩
  | .hbm, ⟨94, _⟩ => ⟨S200000x1, .f32⟩
  | .hbm, ⟨95, _⟩ => ⟨S1x1, .f32⟩
  | .hbm, ⟨96, _⟩ => ⟨S200000x1, .f32⟩
  | .hbm, ⟨97, _⟩ => ⟨S200000x1, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S1x16_S50000x16_0_1 : S1x16.BroadcastsInDim S50000x16 (![0, 1] : Fin 2 → Fin S50000x16.rank)
  bcast_S1x16_S100000x16_0_1 : S1x16.BroadcastsInDim S100000x16 (![0, 1] : Fin 2 → Fin S100000x16.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x16 : S_.BroadcastsInDim S50000x16 (![] : Fin 0 → Fin S50000x16.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  concatenates_S50000x16_S50000x16_S50000x32_d1 : Shape.Concatenates [S50000x16, S50000x16] S50000x32 1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S200000x32 : S_.BroadcastsInDim S200000x32 (![] : Fin 0 → Fin S200000x32.rank)
  bcast_S_S4000000x1 : S_.BroadcastsInDim S4000000x1 (![] : Fin 0 → Fin S4000000x1.rank)
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  concatenates_S200000x16_S200000x32_S200000x48_d1 : Shape.Concatenates [S200000x16, S200000x32] S200000x48 1
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x10_S10x16_S200000x16_1_0_0_1_n_n_wf : DotDims.WF S200000x10 S10x16 S200000x16 [1] [0] [0] [1] [] []
  dot_S50000x8_S8x16_S50000x16_1_0_0_1_n_n_wf : DotDims.WF S50000x8 S8x16 S50000x16 [1] [0] [0] [1] [] []
  dot_S100000x10_S10x16_S100000x16_1_0_0_1_n_n_wf : DotDims.WF S100000x10 S10x16 S100000x16 [1] [0] [0] [1] [] []
  gather_S100000x16_S400000x1_S400000x16_1_0_n_n_0_1_116_wf : GatherDims.WF S100000x16 S400000x1 S400000x16 [1] [0] [] [0] [] 1 ![1, 16]
  scatter_S50000x16_S400000x1_S400000x16_1_0_0_1_wf : ScatterDims.WF S50000x16 S400000x1 S400000x16 [1] [0] [0] 1
  scatter_S50000x1_S400000x1_S400000x1_1_0_0_1_wf : ScatterDims.WF S50000x1 S400000x1 S400000x1 [1] [0] [0] 1
  gather_S50000x32_S4000000x1_S4000000x32_1_0_n_n_0_1_132_wf : GatherDims.WF S50000x32 S4000000x1 S4000000x32 [1] [0] [] [0] [] 1 ![1, 32]
  scatter_S200000x32_S4000000x1_S4000000x32_1_0_0_1_wf : ScatterDims.WF S200000x32 S4000000x1 S4000000x32 [1] [0] [0] 1
  scatter_S200000x1_S4000000x1_S4000000x1_1_0_0_1_wf : ScatterDims.WF S200000x1 S4000000x1 S4000000x1 [1] [0] [0] 1
  dot_S200000x48_S48x64_S200000x64_1_0_0_1_n_n_wf : DotDims.WF S200000x48 S48x64 S200000x64 [1] [0] [0] [1] [] []
  dot_S200000x64_S64x64_S200000x64_1_0_0_1_n_n_wf : DotDims.WF S200000x64 S64x64 S200000x64 [1] [0] [0] [1] [] []
  dot_S200000x64_S64x1_S200000x1_1_0_0_1_n_n_wf : DotDims.WF S200000x64 S64x1 S200000x1 [1] [0] [0] [1] [] []

variable [Facts₀]

def dot_S200000x10_S10x16_S200000x16_1_0_0_1_n_n : DotDims S200000x10 S10x16 S200000x16 where
  lhsContracting := [1]
  rhsContracting := [0]
  lhsNonContracting := [0]
  rhsNonContracting := [1]
  lhsBatch := []
  rhsBatch := []
  wf := dot_S200000x10_S10x16_S200000x16_1_0_0_1_n_n_wf
def dot_S50000x8_S8x16_S50000x16_1_0_0_1_n_n : DotDims S50000x8 S8x16 S50000x16 where
  lhsContracting := [1]
  rhsContracting := [0]
  lhsNonContracting := [0]
  rhsNonContracting := [1]
  lhsBatch := []
  rhsBatch := []
  wf := dot_S50000x8_S8x16_S50000x16_1_0_0_1_n_n_wf
def dot_S100000x10_S10x16_S100000x16_1_0_0_1_n_n : DotDims S100000x10 S10x16 S100000x16 where
  lhsContracting := [1]
  rhsContracting := [0]
  lhsNonContracting := [0]
  rhsNonContracting := [1]
  lhsBatch := []
  rhsBatch := []
  wf := dot_S100000x10_S10x16_S100000x16_1_0_0_1_n_n_wf
def gather_S100000x16_S400000x1_S400000x16_1_0_n_n_0_1_116 : GatherDims S100000x16 S400000x1 S400000x16 where
  offsetDims := [1]
  collapsedSliceDims := [0]
  operandBatchingDims := []
  startIndicesBatchingDims := []
  startIndexMap := [0]
  indexVectorDim := 1
  sliceSizes := ![1, 16]
  wf := gather_S100000x16_S400000x1_S400000x16_1_0_n_n_0_1_116_wf
def scatter_S50000x16_S400000x1_S400000x16_1_0_0_1 : ScatterDims S50000x16 S400000x1 S400000x16 where
  updateWindowDims := [1]
  insertedWindowDims := [0]
  scatterDimsToOperandDims := [0]
  indexVectorDim := 1
  wf := scatter_S50000x16_S400000x1_S400000x16_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x32_S4000000x1_S4000000x32_1_0_n_n_0_1_132 : GatherDims S50000x32 S4000000x1 S4000000x32 where
  offsetDims := [1]
  collapsedSliceDims := [0]
  operandBatchingDims := []
  startIndicesBatchingDims := []
  startIndexMap := [0]
  indexVectorDim := 1
  sliceSizes := ![1, 32]
  wf := gather_S50000x32_S4000000x1_S4000000x32_1_0_n_n_0_1_132_wf
def scatter_S200000x32_S4000000x1_S4000000x32_1_0_0_1 : ScatterDims S200000x32 S4000000x1 S4000000x32 where
  updateWindowDims := [1]
  insertedWindowDims := [0]
  scatterDimsToOperandDims := [0]
  indexVectorDim := 1
  wf := scatter_S200000x32_S4000000x1_S4000000x32_1_0_0_1_wf
def scatter_S200000x1_S4000000x1_S4000000x1_1_0_0_1 : ScatterDims S200000x1 S4000000x1 S4000000x1 where
  updateWindowDims := [1]
  insertedWindowDims := [0]
  scatterDimsToOperandDims := [0]
  indexVectorDim := 1
  wf := scatter_S200000x1_S4000000x1_S4000000x1_1_0_0_1_wf
def dot_S200000x48_S48x64_S200000x64_1_0_0_1_n_n : DotDims S200000x48 S48x64 S200000x64 where
  lhsContracting := [1]
  rhsContracting := [0]
  lhsNonContracting := [0]
  rhsNonContracting := [1]
  lhsBatch := []
  rhsBatch := []
  wf := dot_S200000x48_S48x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.Spec.lean ====
/-
  The plain program's result as four functions of arrays, at any float values, in the plain program's own spelling:
  an encoder `tanh (x · W + b)` for each of the three node tables; the pooling between them (each vehicle takes the
  mean of the codes of the passengers on its edges, the mean being the segment sum over the edge list divided by the
  larger of the edge count and one, and is joined to its own code; each request takes the mean of those joined vehicle
  rows in the same way and is joined to its own code); and the three-layer actor on the joined rows. The plain program's
  result is their composition (`ref_is`, in the module that reads its run).
-/
import proofs.«143015_j46454366273712_1_alg».proof.Proof.Gen.ReferenceIdeal

noncomputable section

namespace Cert.Bridge

open Cert.ReferenceIdeal Cert.ReferenceIdeal.Gen Idealize.ShloMosaic Idealize.ShloMosaic.TcCoe Idealize.SL.Sem

variable {F : FTy → Type} [FloatOps F]

/-- The request encoder: `tanh (x · W + b)` over the 200000 request rows. -/
def encReq (x : (⟨S200000x10, .f32⟩ : BufTy).Contents (Elt F)) (w : (⟨S10x16, .f32⟩ : BufTy).Contents (Elt F)) (b : (⟨S16, .f32⟩ : BufTy).Contents (Elt F)) : (⟨S200000x16, .f32⟩ : BufTy).Contents (Elt F) :=
  (Host.tanh (addf (Host.dotGeneral dot_S200000x10_S10x16_S200000x16_1_0_0_1_n_n none x w) (broadcastInDim S200000x16 ![0, 1] bcast_S1x16_S200000x16_0_1 (broadcastInDim S1x16 ![1] bcast_S16_S1x16_1 b))))

/-- The vehicle encoder: the same over the 50000 vehicle rows of width 8. -/
def encVeh (x : (⟨S50000x8, .f32⟩ : BufTy).Contents (Elt F)) (w : (⟨S8x16, .f32⟩ : BufTy).Contents (Elt F)) (b : (⟨S16, .f32⟩ : BufTy).Contents (Elt F)) : (⟨S50000x16, .f32⟩ : BufTy).Contents (Elt F) :=
  (Host.tanh (addf (Host.dotGeneral dot_S50000x8_S8x16_S50000x16_1_0_0_1_n_n none x w) (broadcastInDim S50000x16 ![0, 1] bcast_S1x16_S50000x16_0_1 (broadcastInDim S1x16 ![1] bcast_S16_S1x16_1 b))))

/-- The passenger encoder: the same over the 100000 passenger rows. -/
def encPas (x : (⟨S100000x10, .f32⟩ : BufTy).Contents (Elt F)) (w : (⟨S10x16, .f32⟩ : BufTy).Contents (Elt F)) (b : (⟨S16, .f32⟩ : BufTy).Contents (Elt F)) : (⟨S100000x16, .f32⟩ : BufTy).Contents (Elt F) :=
  (Host.tanh (addf (Host.dotGeneral dot_S100000x10_S10x16_S100000x16_1_0_0_1_n_n none x w) (broadcastInDim S100000x16 ![0, 1] bcast_S1x16_S100000x16_0_1 (broadcastInDim S1x16 ![1] bcast_S16_S1x16_1 b))))

/-- The pooling: passenger codes averaged onto vehicles along the vehicle-passenger edges `(i4, i3)`, joined to the
    vehicle codes; those rows averaged onto requests along the request-vehicle edges `(i5, i6)`, joined to the request
    codes. A negative gathered index counts from the end of the table. -/
def pooled (req : (⟨S200000x16, .f32⟩ : BufTy).Contents (Elt F)) (veh : (⟨S50000x16, .f32⟩ : BufTy).Contents (Elt F)) (pas : (⟨S100000x16, .f32⟩ : BufTy).Contents (Elt F))
    (i3 i4 : (⟨S400000, .i32⟩ : BufTy).Contents (Elt F)) (i5 i6 : (⟨S4000000, .i32⟩ : BufTy).Contents (Elt F)) : (⟨S200000x48, .f32⟩ : BufTy).Contents (Elt F) :=
  (concatenate S200000x48 1 [⟨S200000x16, req⟩, ⟨S200000x32, (Host.divf (Host.scatterAdd scatter_S200000x32_S4000000x1_S4000000x32_1_0_0_1 (broadcastInDim S200000x32 ![] bcast_S_S200000x32 (constant S_ .f32 0x00000000#32)) (broadcastInDim S4000000x1 ![0] bcast_S4000000_S4000000x1_0 i5) (Host.gather gather_S50000x32_S4000000x1_S4000000x32_1_0_n_n_0_1_132 (concatenate S50000x32 1 [⟨S50000x16, veh⟩, ⟨S50000x16, (Host.divf (Host.scatterAdd scatter_S50000x16_S400000x1_S400000x16_1_0_0_1 (broadcastInDim S50000x16 ![] bcast_S_S50000x16 (constant S_ .f32 0x00000000#32)) (broadcastInDim S400000x1 ![0] bcast_S400000_S400000x1_0 i4) (Host.gather gather_S100000x16_S400000x1_S400000x16_1_0_n_n_0_1_116 pas (broadcastInDim S400000x1 ![0] bcast_S400000_S400000x1_0 (select (cmpi .slt i3 (broadcastInDim S400000 ![] bcast_S_S400000 (constantI S_ 32 0#32))) (addi i3 (broadcastInDim S400000 ![] bcast_S_S400000 (constantI S_ 32 100000#32))) i3)))) (broadcastInDim S50000x16 ![0, 1] bcast_S50000x1_S50000x16_0_1 (maximumf (Host.scatterAdd scatter_S50000x1_S400000x1_S400000x1_1_0_0_1 (broadcastInDim S50000x1 ![] bcast_S_S50000x1 (constant S_ .f32 0x00000000#32)) (broadcastInDim S400000x1 ![0] bcast_S400000_S400000x1_0 i4) (broadcastInDim S400000x1 ![] bcast_S_S400000x1 (constant S_ .f32 0x3F800000#32))) (broadcastInDim S50000x1 ![] bcast_S_S50000x1 (constant S_ .f32 0x3F800000#32)))))⟩] concatenates_S50000x16_S50000x16_S50000x32_d1) (broadcastInDim S4000000x1 ![0] bcast_S4000000_S4000000x1_0 (select (cmpi .slt i6 (broadcastInDim S4000000 ![] bcast_S_S4000000 (constantI S_ 32 0#32))) (addi i6 (broadcastInDim S4000000 ![] bcast_S_S4000000 (constantI S_ 32 50000#32))) i6)))) (broadcastInDim S200000x32 ![0, 1] bcast_S200000x1_S200000x32_0_1 (maximumf (Host.scatterAdd scatter_S200000x1_S4000000x1_S4000000x1_1_0_0_1 (broadcastInDim S200000x1 ![] bcast_S_S200000x1 (constant S_ .f32 0x00000000#32)) (broadcastInDim S4000000x1 ![0] bcast_S4000000_S4000000x1_0 i5) (broadcastInDim S4000000x1 ![] bcast_S_S4000000x1 (constant S_ .f32 0x3F800000#32))) (broadcastInDim S200000x1 ![] bcast_S_S200000x1 (constant S_ .f32 0x3F800000#32)))))⟩] concatenates_S200000x16_S200000x32_S200000x48_d1)

/-- The actor: `tanh (tanh (a · W1 + b1) · W2 + b2) · W3 + b3` over the joined rows. -/
def actor (a : (⟨S200000x48, .f32⟩ : BufTy).Contents (Elt F)) (w1 : (⟨S48x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F))
    (w3 : (⟨S64x1, .f32⟩ : BufTy).Contents (Elt F)) (b3 : (⟨S1, .f32⟩ : BufTy).Contents (Elt F)) : (⟨S200000x1, .f32⟩ : BufTy).Contents (Elt F) :=
  addf (Host.dotGeneral dot_S200000x64_S64x1_S200000x1_1_0_0_1_n_n none (Host.tanh (addf (Host.dotGeneral dot_S200000x64_S64x64_S200000x64_1_0_0_1_n_n none (Host.tanh (addf (Host.dotGeneral dot_S200000x48_S48x64_S200000x64_1_0_0_1_n_n none a w1) (broadcastInDim S200000x64 ![0, 1] bcast_S1x64_S200000x64_0_1 (broadcastInDim S1x64 ![1] bcast_S64_S1x64_1 b1)))) w2) (broadcastInDim S200000x64 ![0, 1] bcast_S1x64_S200000x64_0_1 (broadcastInDim S1x64 ![1] bcast_S64_S1x64_1 b2)))) w3) (broadcastInDim S200000x1 ![0, 1] bcast_S1x1_S200000x1_0_1 (broadcastInDim S1x1 ![1] bcast_S1_S1x1_1 b3))

end Cert.Bridge

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KernelDots.lean ====
/-
  The five matrix products of the kernels' bodies (a 10000-row tile by the 10- and 8-column encoder weights; a
  5000-row tile through the actor's three layers) are plain products: one contracted index, the left operand's column
  against the right operand's row. Each record's four index facts are read off its lists, as the plain program's are.
-/
import proofs.«143015_j46454366273712_1_alg».proof.Proof.Gen.KernelIdeal
import proofs.«143015_j46454366273712_1_alg».proof.Proof.LibAffineRows
import Idealize.ShloMosaic.Lib.ValueIdx

noncomputable section

namespace Cert.KernelIdeal.Dots

open Cert.KernelIdeal Cert.KernelIdeal.Gen Idealize.ShloMosaic

/-- The dimension numbers of the `10000x10` by `10x16` product are the plain ones. -/
theorem enc10_l0 (i : S10000x16.Idx) (q : dot_S10000x10_S10x16_S10000x16_1_0_0_1_n_n.contr.Idx) : (dot_S10000x10_S10x16_S10000x16_1_0_0_1_n_n.lhsIdx i q 0).val = (i 0).val := by
  unfold DotDims.lhsIdx
  rw [dif_neg (show ¬(0 : Fin S10000x10.rank) ∈ dot_S10000x10_S10x16_S10000x16_1_0_0_1_n_n.lhsBatch by decide), dif_pos (show (0 : Fin S10000x10.rank) ∈ dot_S10000x10_S10x16_S10000x16_1_0_0_1_n_n.lhsNonContracting by decide)]
  rfl
theorem enc10_l1 (i : S10000x16.Idx) (q : dot_S10000x10_S10x16_S10000x16_1_0_0_1_n_n.contr.Idx) : (dot_S10000x10_S10x16_S10000x16_1_0_0_1_n_n.lhsIdx i q 1).val = (q ⟨0, by decide⟩).val :=
  dot_S10000x10_S10x16_S10000x16_1_0_0_1_n_n.lhsIdx_val_of_single rfl i q
theorem enc10_r0 (i : S10000x16.Idx) (q : dot_S10000x10_S10x16_S10000x16_1_0_0_1_n_n.contr.Idx) : (dot_S10000x10_S10x16_S10000x16_1_0_0_1_n_n.rhsIdx i q 0).val = (q ⟨0, by decide⟩).val :=
  dot_S10000x10_S10x16_S10000x16_1_0_0_1_n_n.rhsIdx_val_of_single rfl i q
theorem enc10_r1 (i : S10000x16.Idx) (q : dot_S10000x10_S10x16_S10000x16_1_0_0_1_n_n.contr.Idx) : (dot_S10000x10_S10x16_S10000x16_1_0_0_1_n_n.rhsIdx i q 1).val = (i 1).val := by
  unfold DotDims.rhsIdx
  rw [dif_neg (show ¬(1 : Fin S10x16.rank) ∈ dot_S10000x10_S10x16_S10000x16_1_0_0_1_n_n.rhsBatch by decide), dif_pos (show (1 : Fin S10x16.rank) ∈ dot_S10000x10_S10x16_S10000x16_1_0_0_1_n_n.rhsNonContracting by decide)]
  rfl
theorem enc10 : Cert.Lib.PlainDot dot_S10000x10_S10x16_S10000x16_1_0_0_1_n_n := ⟨rfl, rfl, enc10_l0, enc10_l1, enc10_r0, enc10_r1⟩

/-- The dimension numbers of the `10000x8` by `8x16` product are the plain ones. -/
theorem enc8_l0 (i : S10000x16.Idx) (q : dot_S10000x8_S8x16_S10000x16_1_0_0_1_n_n.contr.Idx) : (dot_S10000x8_S8x16_S10000x16_1_0_0_1_n_n.lhsIdx i q 0).val = (i 0).val := by
  unfold DotDims.lhsIdx
  rw [dif_neg (show ¬(0 : Fin S10000x8.rank) ∈ dot_S10000x8_S8x16_S10000x16_1_0_0_1_n_n.lhsBatch by decide), dif_pos (show (0 : Fin S10000x8.rank) ∈ dot_S10000x8_S8x16_S10000x16_1_0_0_1_n_n.lhsNonContracting by decide)]
  rfl
theorem enc8_l1 (i : S10000x16.Idx) (q : dot_S10000x8_S8x16_S10000x16_1_0_0_1_n_n.contr.Idx) : (dot_S10000x8_S8x16_S10000x16_1_0_0_1_n_n.lhsIdx i q 1).val = (q ⟨0, by decide⟩).val :=
  dot_S10000x8_S8x16_S10000x16_1_0_0_1_n_n.lhsIdx_val_of_single rfl i q
theorem enc8_r0 (i : S10000x16.Idx) (q : dot_S10000x8_S8x16_S10000x16_1_0_0_1_n_n.contr.Idx) : (dot_S10000x8_S8x16_S10000x16_1_0_0_1_n_n.rhsIdx i q 0).val = (q ⟨0, by decide⟩).val :=
  dot_S10000x8_S8x16_S10000x16_1_0_0_1_n_n.rhsIdx_val_of_single rfl i q
theorem enc8_r1 (i : S10000x16.Idx) (q : dot_S10000x8_S8x16_S10000x16_1_0_0_1_n_n.contr.Idx) : (dot_S10000x8_S8x16_S10000x16_1_0_0_1_n_n.rhsIdx i q 1).val = (i 1).val := by
  unfold DotDims.rhsIdx
  rw [dif_neg (show ¬(1 : Fin S8x16.rank) ∈ dot_S10000x8_S8x16_S10000x16_1_0_0_1_n_n.rhsBatch by decide), dif_pos (show (1 : Fin S8x16.rank) ∈ dot_S10000x8_S8x16_S10000x16_1_0_0_1_n_n.rhsNonContracting by decide)]
  rfl
theorem enc8 : Cert.Lib.PlainDot dot_S10000x8_S8x16_S10000x16_1_0_0_1_n_n := ⟨rfl, rfl, enc8_l0, enc8_l1, enc8_r0, enc8_r1⟩

/-- The dimension numbers of the `5000x48` by `48x64` product are the plain ones. -/
theorem act1_l0 (i : S5000x64.Idx) (q : dot_S5000x48_S48x64_S5000x64_1_0_0_1_n_n.contr.Idx) : (dot_S5000x48_S48x64_S5000x64_1_0_0_1_n_n.lhsIdx i q 0).val = (i 0).val := by
  unfold DotDims.lhsIdx
  rw [dif_neg (show ¬(0 : Fin S5000x48.rank) ∈ dot_S5000x48_S48x64_S5000x64_1_0_0_1_n_n.lhsBatch by decide), dif_pos (show (0 : Fin S5000x48.rank) ∈ dot_S5000x48_S48x64_S5000x64_1_0_0_1_n_n.lhsNonContracting by decide)]
  rfl
theorem act1_l1 (i : S5000x64.Idx) (q : dot_S5000x48_S48x64_S5000x64_1_0_0_1_n_n.contr.Idx) : (dot_S5000x48_S48x64_S5000x64_1_0_0_1_n_n.lhsIdx i q 1).val = (q ⟨0, by decide⟩).val :=
  dot_S5000x48_S48x64_S5000x64_1_0_0_1_n_n.lhsIdx_val_of_single rfl i q
theorem act1_r0 (i : S5000x64.Idx) (q : dot_S5000x48_S48x64_S5000x64_1_0_0_1_n_n.contr.Idx) : (dot_S5000x48_S48x64_S5000x64_1_0_0_1_n_n.rhsIdx i q 0).val = (q ⟨0, by decide⟩).val :=
  dot_S5000x48_S48x64_S5000x64_1_0_0_1_n_n.rhsIdx_val_of_single rfl i q
theorem act1_r1 (i : S5000x64.Idx) (q : dot_S5000x48_S48x64_S5000x64_1_0_0_1_n_n.contr.Idx) : (dot_S5000x48_S48x64_S5000x64_1_0_0_1_n_n.rhsIdx i q 1).val = (i 1).val := by
  unfold DotDims.rhsIdx
  rw [dif_neg (show ¬(1 : Fin S48x64.rank) ∈ dot_S5000x48_S48x64_S5000x64_1_0_0_1_n_n.rhsBatch by decide), dif_pos (show (1 : Fin S48x64.rank) ∈ dot_S5000x48_S48x64_S5000x64_1_0_0_1_n_n.rhsNonContracting by decide)]
  rfl
theorem act1 : Cert.Lib.PlainDot dot_S5000x48_S48x64_S5000x64_1_0_0_1_n_n := ⟨rfl, rfl, act1_l0, act1_l1, act1_r0, act1_r1⟩

/-- The dimension numbers of the `5000x64` by `64x64` product are the plain ones. -/
theorem act2_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem act2_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem act2_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem act2_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
theorem act2 : Cert.Lib.PlainDot dot_S5000x64_S64x64_S5000x64_1_0_0_1_n_n := ⟨rfl, rfl, act2_l0, act2_l1, act2_r0, act2_r1⟩

/-- The dimension numbers of the `5000x64` by `64x1` product are the plain ones. -/
theorem act3_l0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem act3_l1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem act3_r0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem act3_r1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl
theorem act3 : Cert.Lib.PlainDot dot_S5000x64_S64x1_S5000x1_1_0_0_1_n_n := ⟨rfl, rfl, act3_l0, act3_l1, act3_r0, act3_r1⟩

end Cert.KernelIdeal.Dots

end
-- ==== Proof.RefDots.lean ====
/-
  The plain program's six matrix products (the three encoders' and the actor's three layers) are plain products:
  one contracted index, the left operand's column against the right operand's row. The four index facts of each are
  the ones its read-at-an-index module proves.
-/
import proofs.«143015_j46454366273712_1_alg».proof.Proof.Gen.ReferenceIdeal.Read
import proofs.«143015_j46454366273712_1_alg».proof.Proof.LibAffineRows

noncomputable section

namespace Cert.ReferenceIdeal.Dots

open Cert.ReferenceIdeal Cert.ReferenceIdeal.Gen Cert.ReferenceIdeal.Read Idealize.ShloMosaic

theorem req : Cert.Lib.PlainDot dot_S200000x10_S10x16_S200000x16_1_0_0_1_n_n := ⟨rfl, rfl, lhs_main_v0_0, lhs_main_v0_1, rhs_main_v0_0, rhs_main_v0_1⟩
theorem veh : Cert.Lib.PlainDot dot_S50000x8_S8x16_S50000x16_1_0_0_1_n_n := ⟨rfl, rfl, lhs_main_v5_0, lhs_main_v5_1, rhs_main_v5_0, rhs_main_v5_1⟩
theorem pas : Cert.Lib.PlainDot dot_S100000x10_S10x16_S100000x16_1_0_0_1_n_n := ⟨rfl, rfl, lhs_main_v10_0, lhs_main_v10_1, rhs_main_v10_0, rhs_main_v10_1⟩
theorem act1 : Cert.Lib.PlainDot dot_S200000x48_S48x64_S200000x64_1_0_0_1_n_n := ⟨rfl, rfl, lhs_main_v53_0, lhs_main_v53_1, rhs_main_v53_0, rhs_main_v53_1⟩
theorem act2 : Cert.Lib.PlainDot dot_S200000x64_S64x64_S200000x64_1_0_0_1_n_n := ⟨rfl, rfl, lhs_main_v58_0, lhs_main_v58_1, rhs_main_v58_0, rhs_main_v58_1⟩
theorem act3 : Cert.Lib.PlainDot dot_S200000x64_S64x1_S200000x1_1_0_0_1_n_n := ⟨rfl, rfl, lhs_main_v63_0, lhs_main_v63_1, rhs_main_v63_0, rhs_main_v63_1⟩

end Cert.ReferenceIdeal.Dots

end
-- ==== Proof.EncReqValue.lean ====
/-
  Region 0 of the kernel program, the request encoder, at the ideal values: the grid's 20 points each take the
  tile of 10000 consecutive rows of the table, multiply it by the weights (the operands narrowed, which changes
  nothing here), add the bias row and apply tanh, and write the tile of the result back. Tile `t`'s row `r` is row
  `10000 t + r` of the table, so by the row-by-row lemma what point `t` writes back is tile `t` of the plain
  program's encoder applied to the whole table; the tiles cover the result array, which therefore ends holding it.
-/
import proofs.«143015_j46454366273712_1_alg».proof.Proof.KernelIdealFrameP
import proofs.«143015_j46454366273712_1_alg».proof.Proof.Spec
import proofs.«143015_j46454366273712_1_alg».proof.Proof.KernelDots
import proofs.«143015_j46454366273712_1_alg».proof.Proof.RefDots
import proofs.«143015_j46454366273712_1_alg».proof.Proof.LibAffineRows
import Idealize.ShloMosaic.Lib.Pipeline.Value

noncomputable section

namespace Cert.KernelIdeal.EncReq

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the table's and the result's tiles move with the point along the rows; the
    weights and the bias row are one block. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- Row `r` of tile `t` is row `10000 t + r` of the table. -/
def row (t : Fin cfg0.N) (r : Fin 10000) : Fin 200000 :=
  ⟨10000 * t.val + r.val, by have := (idx t).2.2.2.2.2.2.2.2; have := r.isLt; omega⟩

/-- The region's arrays as it finds them, and its input blocks at a point, by their literal types. -/
abbrev xarr (c : Dev nD) : FVec Ideal ⟨2, ![200000, 10]⟩ .f32 := V c main_arg0
abbrev warr (c : Dev nD) : FVec Ideal ⟨2, ![10, 16]⟩ .f32 := V c main_arg7
abbrev barr (c : Dev nD) : FVec Ideal ⟨2, ![1, 16]⟩ .f32 := V c main_v0
abbrev xblk (c : Dev nD) (t : Fin cfg0.N) : FVec Ideal ⟨2, ![10000, 10]⟩ .f32 := iblk0 V c 0 t
abbrev wblk (c : Dev nD) (t : Fin cfg0.N) : FVec Ideal ⟨2, ![10, 16]⟩ .f32 := iblk0 V c 1 t
abbrev bblk (c : Dev nD) (t : Fin cfg0.N) : FVec Ideal ⟨2, ![1, 16]⟩ .f32 := iblk0 V c 2 t

theorem xblk_apply (c : Dev nD) (t : Fin cfg0.N) (r : Fin 10000) (k : Fin 10) :
    xblk V c t (ix2 r k) = xarr V c (ix2 (row t r) k) := by
  obtain ⟨e0, e1, -⟩ := idx t
  unfold xblk iblk0
  rw [View.read_apply]
  show V c main_arg0 _ = V c main_arg0 _
  congr 1
  funext a
  apply Fin.ext
  match a with
  | ⟨0, _⟩ => show win0_0.index t (0 : Fin 2) * 10000 + 1 * r.val = 10000 * t.val + r.val; rw [e0]; omega
  | ⟨1, _⟩ => show win0_0.index t (1 : Fin 2) * 10 + 1 * k.val = k.val; rw [e1]; omega

theorem wblk_eq (c : Dev nD) (t : Fin cfg0.N) : wblk V c t = warr V c := by
  obtain ⟨-, -, e2, e3, -⟩ := idx t
  funext y
  unfold wblk iblk0
  rw [View.read_apply]
  show V c main_arg7 _ = V c main_arg7 _
  congr 1
  funext a
  apply Fin.ext
  match a with
  | ⟨0, _⟩ => show win0_1.index t (0 : Fin 2) * 10 + 1 * (y 0).val = (y 0).val; rw [e2]; omega
  | ⟨1, _⟩ => show win0_1.index t (1 : Fin 2) * 16 + 1 * (y 1).val = (y 1).val; rw [e3]; omega

theorem bblk_eq (c : Dev nD) (t : Fin cfg0.N) : bblk V c t = barr V c := by
  obtain ⟨-, -, -, -, e4, e5, -⟩ := idx t
  funext y
  unfold bblk iblk0
  rw [View.read_apply]
  show V c main_v0 _ = V c main_v0 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 16 + 1 * (y 1).val = (y 1).val; rw [e5]; omega

/-- The body's stored value at `(r, q)` of tile `t` is the encoder of the whole table at `(10000 t + r, q)`, the bias
    row being the bias vector `b`. -/
theorem pay_apply (c : Dev nD) (t : Fin cfg0.N) (b : FVec Ideal ⟨1, ![16]⟩ .f32)
    (hb : ∀ q : Fin 16, barr V c (ix2 (0 : Fin 1) q) = b (ix1 q)) (r : Fin 10000) (q : Fin 16) :
    k0_pay1 (F := Ideal) (xblk V c t) (wblk V c t) (bblk V c t) (ix2 r q)
      = Cert.Bridge.encReq (F := Ideal) (xarr V c) (warr V c) b (ix2 (row t r) q) := by
  rw [wblk_eq, bblk_eq]
  unfold k0_pay1 Cert.Bridge.encReq
  exact Cert.Lib.tanh_affine_rows Dots.enc10 Cert.ReferenceIdeal.Dots.req (xblk V c t) (xarr V c) (warr V c) (barr V c) b (row t)
    (xblk_apply V c t) hb _ _ _ _ _ r q

/-- WHAT POINT `t` WRITES BACK is tile `t` of the encoder of the whole table. -/
theorem flushed_eq (c : Dev nD) (b : FVec Ideal ⟨1, ![16]⟩ .f32)
    (hb : ∀ q : Fin 16, barr V c (ix2 (0 : Fin 1) q) = b (ix1 q)) (t : Fin cfg0.N) :
    (dat0 V c).flushed 3 t
      = ((cfg0.win 3).blk t).view.read (Elt Ideal) (Cert.Bridge.encReq (F := Ideal) (xarr V c) (warr V c) b) := by
  obtain ⟨-, -, -, -, -, -, e6, e7, -⟩ := idx t
  show (cfg0.win 3).cut (grid0.coords t) ((dat0 V c).after 3 t) = _
  rw [after0_3]
  unfold out0_3
  rw [View.canon_unit_zero hz]
  simp only [View.ld_unit_zero (S := S10000x10) hz, View.ld_unit_zero (S := S10x16) hz, View.ld_unit_zero (S := S1x16) hz]
  funext y
  obtain ⟨r, q, rfl⟩ : ∃ (r : Fin 10000) (q : Fin 16), y = ix2 r q := ⟨y 0, y 1, eq_ix2 y⟩
  refine (pay_apply V c t b hb r q).trans ?_
  rw [View.read_apply]
  congr 1
  funext a
  apply Fin.ext
  match a with
  | ⟨0, _⟩ => show 10000 * t.val + r.val = win0_3.index t (0 : Fin 2) * 10000 + 1 * r.val; rw [e6]; omega
  | ⟨1, _⟩ => show q.val = win0_3.index t (1 : Fin 2) * 16 + 1 * q.val; rw [e7]; omega

/-- An index of the result array is in point `t`'s tile iff each coordinate is in the tile's range. -/
theorem mem_blk (t : Fin cfg0.N) (i : S200000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v1).slice (win0_3.rect t)).set ↔ _
  rw [View.set_slice_whole, Rect.mem_set_unit]
  exact Iff.rfl

/-- THE RESULT ARRAY after the region: the encoder of the whole table (row `n` lies in tile `n / 10000`). -/
theorem final (c : Dev nD) (b : FVec Ideal ⟨1, ![16]⟩ .f32)
    (hb : ∀ q : Fin 16, barr V c (ix2 (0 : Fin 1) q) = b (ix1 q)) :
    (dat0 V c).arrAt 3 cfg0.N = Cert.Bridge.encReq (F := Ideal) (xarr V c) (warr V c) b :=
  (dat0 V c).arrAt_eq_of_cover 3 _ (fun t _ => flushed_eq V c b hb t) fun i => by
    have hi0 : (i 0).val < 200000 := (i 0).isLt
    have hi1 : (i 1).val < 16 := (i 1).isLt
    obtain ⟨t, ht⟩ : ∃ t : Fin cfg0.N, t.val = (i 0).val / 10000 :=
      ⟨⟨(i 0).val / 10000, by rw [show cfg0.N = 20 from N_0]; omega⟩, rfl⟩
    obtain ⟨-, -, -, -, -, -, e6, e7, -⟩ := idx t
    refine ⟨t, flush0_3 t, ?_⟩
    rw [mem_blk]
    intro a
    match a with
    | ⟨0, _⟩ => show win0_3.index t (0 : Fin 2) * 10000 ≤ (i 0).val ∧ (i 0).val < win0_3.index t (0 : Fin 2) * 10000 + 10000; rw [e6, ht]; omega
    | ⟨1, _⟩ => show win0_3.index t (1 : Fin 2) * 16 ≤ (i 1).val ∧ (i 1).val < win0_3.index t (1 : Fin 2) * 16 + 16; rw [e7]; omega

end Cert.KernelIdeal.EncReq

end
-- ==== Proof.ActorValue.lean ====
/-
  Region 3 of the kernel program, the actor, at the ideal values: each of the grid's 40 points takes a tile of 5000
  consecutive joined rows and sends it through three dense layers (48 to 64 with tanh, 64 to 64 with tanh, 64 to 1),
  every product on the matrix unit with narrowed operands, every bias a one-row block, and writes its 5000 results
  back. Row `r` of tile `t` is row `5000 t + r`; the row-by-row lemma carries that through the first layer, its
  conclusion is the hypothesis of the second, and so on: what point `t` writes back is tile `t` of the plain program's
  actor applied to all the joined rows, and the tiles cover the result array.
-/
import proofs.«143015_j46454366273712_1_alg».proof.Proof.KernelIdealFrameP
import proofs.«143015_j46454366273712_1_alg».proof.Proof.Spec
import proofs.«143015_j46454366273712_1_alg».proof.Proof.KernelDots
import proofs.«143015_j46454366273712_1_alg».proof.Proof.RefDots
import proofs.«143015_j46454366273712_1_alg».proof.Proof.LibAffineRows
import Idealize.ShloMosaic.Lib.Pipeline.Value

noncomputable section

namespace Cert.KernelIdeal.Actor

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the joined rows' and the result's tiles move with the point along the rows;
    the three weight matrices and the three bias rows are one block each. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 ∧ t.val < 40 :=
  (by decide +kernel : ∀ t : Fin grid3.N, _)

/-- Row `r` of tile `t` is row `5000 t + r` of the joined rows. -/
def row (t : Fin cfg3.N) (r : Fin 5000) : Fin 200000 :=
  ⟨5000 * t.val + r.val, by have := (idx t).2.2.2.2.2.2.2.2.2.2.2.2.2.2.2.2; have := r.isLt; omega⟩

/-- The region's arrays as it finds them, and its input blocks at a point, by their literal types. -/
abbrev xarr (c : Dev nD) : FVec Ideal ⟨2, ![200000, 48]⟩ .f32 := V c main_v43
abbrev xblk (c : Dev nD) (t : Fin cfg3.N) : FVec Ideal ⟨2, ![5000, 48]⟩ .f32 := iblk3 V c 0 t
abbrev w1arr (c : Dev nD) : FVec Ideal ⟨2, ![48, 64]⟩ .f32 := V c main_arg13
abbrev w1blk (c : Dev nD) (t : Fin cfg3.N) : FVec Ideal ⟨2, ![48, 64]⟩ .f32 := iblk3 V c 1 t
abbrev c1arr (c : Dev nD) : FVec Ideal ⟨2, ![1, 64]⟩ .f32 := V c main_v44
abbrev c1blk (c : Dev nD) (t : Fin cfg3.N) : FVec Ideal ⟨2, ![1, 64]⟩ .f32 := iblk3 V c 2 t
abbrev w2arr (c : Dev nD) : FVec Ideal ⟨2, ![64, 64]⟩ .f32 := V c main_arg15
abbrev w2blk (c : Dev nD) (t : Fin cfg3.N) : FVec Ideal ⟨2, ![64, 64]⟩ .f32 := iblk3 V c 3 t
abbrev c2arr (c : Dev nD) : FVec Ideal ⟨2, ![1, 64]⟩ .f32 := V c main_v45
abbrev c2blk (c : Dev nD) (t : Fin cfg3.N) : FVec Ideal ⟨2, ![1, 64]⟩ .f32 := iblk3 V c 4 t
abbrev w3arr (c : Dev nD) : FVec Ideal ⟨2, ![64, 1]⟩ .f32 := V c main_arg17
abbrev w3blk (c : Dev nD) (t : Fin cfg3.N) : FVec Ideal ⟨2, ![64, 1]⟩ .f32 := iblk3 V c 5 t
abbrev c3arr (c : Dev nD) : FVec Ideal ⟨2, ![1, 1]⟩ .f32 := V c main_v46
abbrev c3blk (c : Dev nD) (t : Fin cfg3.N) : FVec Ideal ⟨2, ![1, 1]⟩ .f32 := iblk3 V c 6 t

theorem xblk_apply (c : Dev nD) (t : Fin cfg3.N) (r : Fin 5000) (k : Fin 48) :
    xblk V c t (ix2 r k) = xarr V c (ix2 (row t r) k) := by
  obtain ⟨e0, e1, -⟩ := idx t
  unfold xblk iblk3
  rw [View.read_apply]
  show V c main_v43 _ = V c main_v43 _
  congr 1
  funext a
  apply Fin.ext
  match a with
  | ⟨0, _⟩ => show win3_0.index t (0 : Fin 2) * 5000 + 1 * r.val = 5000 * t.val + r.val; rw [e0]; omega
  | ⟨1, _⟩ => show win3_0.index t (1 : Fin 2) * 48 + 1 * k.val = k.val; rw [e1]; omega

theorem w1blk_eq (c : Dev nD) (t : Fin cfg3.N) : w1blk V c t = w1arr V c := by
  have e := (idx t).2.2
  obtain ⟨ea, eb, -, -, -, -, -, -, -, -, -, -, -⟩ := e
  funext y
  unfold w1blk iblk3
  rw [View.read_apply]
  show V c main_arg13 _ = V c main_arg13 _
  congr 1
  funext a
  apply Fin.ext
  match a with
  | ⟨0, _⟩ => show win3_1.index t (0 : Fin 2) * 48 + 1 * (y 0).val = (y 0).val; rw [ea]; omega
  | ⟨1, _⟩ => show win3_1.index t (1 : Fin 2) * 64 + 1 * (y 1).val = (y 1).val; rw [eb]; omega

theorem c1blk_eq (c : Dev nD) (t : Fin cfg3.N) : c1blk V c t = c1arr V c := by
  have e := (idx t).2.2
  obtain ⟨-, -, ea, eb, -, -, -, -, -, -, -, -, -⟩ := e
  funext y
  unfold c1blk iblk3
  rw [View.read_apply]
  show V c main_v44 _ = V c main_v44 _
  congr 1
  funext a
  apply Fin.ext
  match a with
  | ⟨0, _⟩ => show win3_2.index t (0 : Fin 2) * 1 + 1 * (y 0).val = (y 0).val; rw [ea]; omega
  | ⟨1, _⟩ => show win3_2.index t (1 : Fin 2) * 64 + 1 * (y 1).val = (y 1).val; rw [eb]; omega

theorem w2blk_eq (c : Dev nD) (t : Fin cfg3.N) : w2blk V c t = w2arr V c := by
  have e := (idx t).2.2
  obtain ⟨-, -, -, -, ea, eb, -, -, -, -, -, -, -⟩ := e
  funext y
  unfold w2blk iblk3
  rw [View.read_apply]
  show V c main_arg15 _ = V c main_arg15 _
  congr 1
  funext a
  apply Fin.ext
  match a with
  | ⟨0, _⟩ => show win3_3.index t (0 : Fin 2) * 64 + 1 * (y 0).val = (y 0).val; rw [ea]; omega
  | ⟨1, _⟩ => show win3_3.index t (1 : Fin 2) * 64 + 1 * (y 1).val = (y 1).val; rw [eb]; omega

theorem c2blk_eq (c : Dev nD) (t : Fin cfg3.N) : c2blk V c t = c2arr V c := by
  have e := (idx t).2.2
  obtain ⟨-, -, -, -, -, -, ea, eb, -, -, -, -, -⟩ := e
  funext y
  unfold c2blk iblk3
  rw [View.read_apply]
  show V c main_v45 _ = V c main_v45 _
  congr 1
  funext a
  apply Fin.ext
  match a with
  | ⟨0, _⟩ => show win3_4.index t (0 : Fin 2) * 1 + 1 * (y 0).val = (y 0).val; rw [ea]; omega
  | ⟨1, _⟩ => show win3_4.index t (1 : Fin 2) * 64 + 1 * (y 1).val = (y 1).val; rw [eb]; omega

theorem w3blk_eq (c : Dev nD) (t : Fin cfg3.N) : w3blk V c t = w3arr V c := by
  have e := (idx t).2.2
  obtain ⟨-, -, -, -, -, -, -, -, ea, eb, -, -, -⟩ := e
  funext y
  unfold w3blk iblk3
  rw [View.read_apply]
  show V c main_arg17 _ = V c main_arg17 _
  congr 1
  funext a
  apply Fin.ext
  match a with
  | ⟨0, _⟩ => show win3_5.index t (0 : Fin 2) * 64 + 1 * (y 0).val = (y 0).val; rw [ea]; omega
  | ⟨1, _⟩ => show win3_5.index t (1 : Fin 2) * 1 + 1 * (y 1).val = (y 1).val; rw [eb]; omega

theorem c3blk_eq (c : Dev nD) (t : Fin cfg3.N) : c3blk V c t = c3arr V c := by
  have e := (idx t).2.2
  obtain ⟨-, -, -, -, -, -, -, -, -, -, ea, eb, -⟩ := e
  funext y
  unfold c3blk iblk3
  rw [View.read_apply]
  show V c main_v46 _ = V c main_v46 _
  congr 1
  funext a
  apply Fin.ext
  match a with
  | ⟨0, _⟩ => show win3_6.index t (0 : Fin 2) * 1 + 1 * (y 0).val = (y 0).val; rw [ea]; omega
  | ⟨1, _⟩ => show win3_6.index t (1 : Fin 2) * 1 + 1 * (y 1).val = (y 1).val; rw [eb]; omega

/-- The body's stored value at row `r` of tile `t` is the actor of all the joined rows at row `5000 t + r`, the bias
    rows being the bias vectors `b1`, `b2`, `b3`. -/
theorem pay_apply (c : Dev nD) (t : Fin cfg3.N) (b1 b2 : FVec Ideal ⟨1, ![64]⟩ .f32) (b3 : FVec Ideal ⟨1, ![1]⟩ .f32)
    (hb1 : ∀ q : Fin 64, c1arr V c (ix2 (0 : Fin 1) q) = b1 (ix1 q))
    (hb2 : ∀ q : Fin 64, c2arr V c (ix2 (0 : Fin 1) q) = b2 (ix1 q))
    (hb3 : ∀ q : Fin 1, c3arr V c (ix2 (0 : Fin 1) q) = b3 (ix1 q)) (r : Fin 5000) (q : Fin 1) :
    k3_pay1 (F := Ideal) (xblk V c t) (w1blk V c t) (c1blk V c t) (w2blk V c t) (c2blk V c t) (w3blk V c t) (c3blk V c t) (ix2 r q)
      = Cert.Bridge.actor (F := Ideal) (xarr V c) (w1arr V c) b1 (w2arr V c) b2 (w3arr V c) b3 (ix2 (row t r) q) := by
  rw [w1blk_eq, c1blk_eq, w2blk_eq, c2blk_eq, w3blk_eq, c3blk_eq]
  unfold k3_pay1 Cert.Bridge.actor
  refine Cert.Lib.affine_rows Dots.act3 Cert.ReferenceIdeal.Dots.act3 _ _ (w3arr V c) (c3arr V c) b3 (row t) (fun r k => ?_) hb3 _ _ _ _ _ r q
  refine Cert.Lib.tanh_affine_rows Dots.act2 Cert.ReferenceIdeal.Dots.act2 _ _ (w2arr V c) (c2arr V c) b2 (row t) (fun r k => ?_) hb2 _ _ _ _ _ r k
  exact Cert.Lib.tanh_affine_rows Dots.act1 Cert.ReferenceIdeal.Dots.act1 _ (xarr V c) (w1arr V c) (c1arr V c) b1 (row t)
    (fun r k => (congrFun (shapeCast_self (xblk V c t) _) _).trans (xblk_apply V c t r k)) hb1 _ _ _ _ _ r k

/-- WHAT POINT `t` WRITES BACK is tile `t` of the actor of all the joined rows. -/
theorem flushed_eq (c : Dev nD) (b1 b2 : FVec Ideal ⟨1, ![64]⟩ .f32) (b3 : FVec Ideal ⟨1, ![1]⟩ .f32)
    (hb1 : ∀ q : Fin 64, c1arr V c (ix2 (0 : Fin 1) q) = b1 (ix1 q))
    (hb2 : ∀ q : Fin 64, c2arr V c (ix2 (0 : Fin 1) q) = b2 (ix1 q))
    (hb3 : ∀ q : Fin 1, c3arr V c (ix2 (0 : Fin 1) q) = b3 (ix1 q)) (t : Fin cfg3.N) :
    (dat3 V c).flushed 7 t
      = ((cfg3.win 7).blk t).view.read (Elt Ideal) (Cert.Bridge.actor (F := Ideal) (xarr V c) (w1arr V c) b1 (w2arr V c) b2 (w3arr V c) b3) := by
  have e := (idx t).2.2.2.2.2.2.2.2.2.2.2.2.2.2
  obtain ⟨e6, e7, -⟩ := e
  show (cfg3.win 7).cut (grid3.coords t) ((dat3 V c).after 7 t) = _
  rw [after3_7]
  unfold out3_7
  rw [View.canon_unit_zero hz]
  simp only [View.ld_unit_zero (S := S5000x48) hz, View.ld_unit_zero (S := S48x64) hz, View.ld_unit_zero (S := S1x64) hz,
    View.ld_unit_zero (S := S64x64) hz, View.ld_unit_zero (S := S64x1) hz, View.ld_unit_zero (S := S1x1) hz]
  funext y
  obtain ⟨r, q, rfl⟩ : ∃ (r : Fin 5000) (q : Fin 1), y = ix2 r q := ⟨y 0, y 1, eq_ix2 y⟩
  refine (pay_apply V c t b1 b2 b3 hb1 hb2 hb3 r q).trans ?_
  rw [View.read_apply]
  congr 1
  funext a
  apply Fin.ext
  match a with
  | ⟨0, _⟩ => show 5000 * t.val + r.val = win3_7.index t (0 : Fin 2) * 5000 + 1 * r.val; rw [e6]; omega
  | ⟨1, _⟩ => show q.val = win3_7.index t (1 : Fin 2) * 1 + 1 * q.val; rw [e7]; omega

/-- An index of the result array is in point `t`'s tile iff each coordinate is in the tile's range. -/
theorem mem_blk (t : Fin cfg3.N) (i : S200000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v47).slice (win3_7.rect t)).set ↔ _
  rw [View.set_slice_whole, Rect.mem_set_unit]
  exact Iff.rfl

/-- THE RESULT ARRAY after the region: the actor of all the joined rows (row `n` lies in tile `n / 5000`). -/
theorem final (c : Dev nD) (b1 b2 : FVec Ideal ⟨1, ![64]⟩ .f32) (b3 : FVec Ideal ⟨1, ![1]⟩ .f32)
    (hb1 : ∀ q : Fin 64, c1arr V c (ix2 (0 : Fin 1) q) = b1 (ix1 q))
    (hb2 : ∀ q : Fin 64, c2arr V c (ix2 (0 : Fin 1) q) = b2 (ix1 q))
    (hb3 : ∀ q : Fin 1, c3arr V c (ix2 (0 : Fin 1) q) = b3 (ix1 q)) :
    (dat3 V c).arrAt 7 cfg3.N = Cert.Bridge.actor (F := Ideal) (xarr V c) (w1arr V c) b1 (w2arr V c) b2 (w3arr V c) b3 :=
  (dat3 V c).arrAt_eq_of_cover 7 _ (fun t _ => flushed_eq V c b1 b2 b3 hb1 hb2 hb3 t) fun i => by
    have hi0 : (i 0).val < 200000 := (i 0).isLt
    have hi1 : (i 1).val < 1 := (i 1).isLt
    obtain ⟨t, ht⟩ : ∃ t : Fin cfg3.N, t.val = (i 0).val / 5000 :=
      ⟨⟨(i 0).val / 5000, by rw [show cfg3.N = 40 from N_3]; omega⟩, rfl⟩
    have e := (idx t).2.2.2.2.2.2.2.2.2.2.2.2.2.2
    obtain ⟨e6, e7, -⟩ := e
    refine ⟨t, flush3_7 t, ?_⟩
    rw [mem_blk]
    intro a
    match a with
    | ⟨0, _⟩ => show win3_7.index t (0 : Fin 2) * 5000 ≤ (i 0).val ∧ (i 0).val < win3_7.index t (0 : Fin 2) * 5000 + 5000; rw [e6, ht]; omega
    | ⟨1, _⟩ => show win3_7.index t (1 : Fin 2) * 1 ≤ (i 1).val ∧ (i 1).val < win3_7.index t (1 : Fin 2) * 1 + 1; rw [e7]; omega

end Cert.KernelIdeal.Actor

end
-- ==== Proof.Boundary.lean ====
/-
  What each region of the kernel program finds in its arrays, read through the program's boundaries.

  Between the launch and region 3 the buffers change only where a host operation or a region's write-back writes.
  An argument is never written, so wherever it is read it holds its launch contents (`W2_keep`, `W4_keep`,
  `W6_keep`: through one, two and three regions). Each bias vector is made a one-row block by the reshape in front of
  its region, so the block's row is the vector. The encoders' result arrays are written once, by their own region, and
  are read again only by the host operations in front of the actor, which compute the joined rows from them and from
  the four edge lists by the plain program's own pooling (`joined_rows`).
-/
import proofs.«143015_j46454366273712_1_alg».proof.Proof.KernelIdealFrameP
import proofs.«143015_j46454366273712_1_alg».proof.Proof.Spec
import Idealize.ShloMosaic.Lib.StableHlo.Run
import Idealize.ShloMosaic.Lib.ValueLayout

noncomputable section

namespace Cert.KernelIdeal.Boundary

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- No operation of a literal list of host operations writes the buffer of the goal: each operation writes its own
    result buffer only, another reference. -/
macro "not_written" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## A buffer nothing has written yet holds its launch contents -/

theorem W1_keep (c : Dev nD) (b : Ref sig .tc)
    (k0 : ∀ op ∈ (hostOps0 : List (HloOp τ sig (Elt F))), Proc.devRef .tc b ∉ op.writes) :
    W1 m ρ c (Proc.devRef .tc b) = m ((c : Thread nD τ).loc b) :=
  StableHlo.after_of_forall_not_mem _ _ k0

theorem W2_keep (c : Dev nD) (b : Ref sig .tc) (n0 : ∀ w, Pipeline.arrRef spec0 w ≠ b)
    (k0 : ∀ op ∈ (hostOps0 : List (HloOp τ sig (Elt F))), Proc.devRef .tc b ∉ op.writes) :
    W2 m ρ c (Proc.devRef .tc b) = m ((c : Thread nD τ).loc b) :=
  (W2_of_ne m ρ c b n0).trans (W1_keep m ρ c b k0)

theorem W3_keep (c : Dev nD) (b : Ref sig .tc) (n0 : ∀ w, Pipeline.arrRef spec0 w ≠ b)
    (k0 : ∀ op ∈ (hostOps0 : List (HloOp τ sig (Elt F))), Proc.devRef .tc b ∉ op.writes)
    (k1 : ∀ op ∈ (hostOps1 : List (HloOp τ sig (Elt F))), Proc.devRef .tc b ∉ op.writes) :
    W3 m ρ c (Proc.devRef .tc b) = m ((c : Thread nD τ).loc b) :=
  (StableHlo.after_of_forall_not_mem _ _ k1).trans (W2_keep m ρ c b n0 k0)

theorem W4_keep (c : Dev nD) (b : Ref sig .tc) (n0 : ∀ w, Pipeline.arrRef spec0 w ≠ b) (n1 : ∀ w, Pipeline.arrRef spec1 w ≠ b)
    (k0 : ∀ op ∈ (hostOps0 : List (HloOp τ sig (Elt F))), Proc.devRef .tc b ∉ op.writes)
    (k1 : ∀ op ∈ (hostOps1 : List (HloOp τ sig (Elt F))), Proc.devRef .tc b ∉ op.writes) :
    W4 m ρ c (Proc.devRef .tc b) = m ((c : Thread nD τ).loc b) :=
  (W4_of_ne m ρ c b n1).trans (W3_keep m ρ c b n0 k0 k1)

theorem W5_keep (c : Dev nD) (b : Ref sig .tc) (n0 : ∀ w, Pipeline.arrRef spec0 w ≠ b) (n1 : ∀ w, Pipeline.arrRef spec1 w ≠ b)
    (k0 : ∀ op ∈ (hostOps0 : List (HloOp τ sig (Elt F))), Proc.devRef .tc b ∉ op.writes)
    (k1 : ∀ op ∈ (hostOps1 : List (HloOp τ sig (Elt F))), Proc.devRef .tc b ∉ op.writes)
    (k2 : ∀ op ∈ (hostOps2 : List (HloOp τ sig (Elt F))), Proc.devRef .tc b ∉ op.writes) :
    W5 m ρ c (Proc.devRef .tc b) = m ((c : Thread nD τ).loc b) :=
  (StableHlo.after_of_forall_not_mem _ _ k2).trans (W4_keep m ρ c b n0 n1 k0 k1)

theorem W6_keep (c : Dev nD) (b : Ref sig .tc) (n0 : ∀ w, Pipeline.arrRef spec0 w ≠ b) (n1 : ∀ w, Pipeline.arrRef spec1 w ≠ b)
    (n2 : ∀ w, Pipeline.arrRef spec2 w ≠ b)
    (k0 : ∀ op ∈ (hostOps0 : List (HloOp τ sig (Elt F))), Proc.devRef .tc b ∉ op.writes)
    (k1 : ∀ op ∈ (hostOps1 : List (HloOp τ sig (Elt F))), Proc.devRef .tc b ∉ op.writes)
    (k2 : ∀ op ∈ (hostOps2 : List (HloOp τ sig (Elt F))), Proc.devRef .tc b ∉ op.writes) :
    W6 m ρ c (Proc.devRef .tc b) = m ((c : Thread nD τ).loc b) :=
  (W6_of_ne m ρ c b n2).trans (W5_keep m ρ c b n0 n1 k0 k1 k2)

theorem W7_keep (c : Dev nD) (b : Ref sig .tc) (n0 : ∀ w, Pipeline.arrRef spec0 w ≠ b) (n1 : ∀ w, Pipeline.arrRef spec1 w ≠ b)
    (n2 : ∀ w, Pipeline.arrRef spec2 w ≠ b)
    (k0 : ∀ op ∈ (hostOps0 : List (HloOp τ sig (Elt F))), Proc.devRef .tc b ∉ op.writes)
    (k1 : ∀ op ∈ (hostOps1 : List (HloOp τ sig (Elt F))), Proc.devRef .tc b ∉ op.writes)
    (k2 : ∀ op ∈ (hostOps2 : List (HloOp τ sig (Elt F))), Proc.devRef .tc b ∉ op.writes)
    (k3 : ∀ op ∈ (hostOps3 : List (HloOp τ sig (Elt F))), Proc.devRef .tc b ∉ op.writes) :
    W7 m ρ c (Proc.devRef .tc b) = m ((c : Thread nD τ).loc b) :=
  (StableHlo.after_of_forall_not_mem _ _ k3).trans (W6_keep m ρ c b n0 n1 n2 k0 k1 k2)

/-! ## Region 0 (the request encoder) finds the request table, its weights, and the bias as a row -/

theorem V1_arg0 (c : Dev nD) : V1 m ρ c main_arg0 = m ((c : Thread nD τ).loc main_arg0) :=
  W1_keep m ρ c main_arg0 (by not_written hostOps0)
theorem V1_arg7 (c : Dev nD) : V1 m ρ c main_arg7 = m ((c : Thread nD τ).loc main_arg7) :=
  W1_keep m ρ c main_arg7 (by not_written hostOps0)
theorem V1_v0 (c : Dev nD) (q : Fin 16) :
    (V1 m ρ c main_v0 : S1x16.Idx → Elt F .f32) (ix2 (0 : Fin 1) q) = (m ((c : Thread nD τ).loc main_arg8) : S16.Idx → Elt F .f32) (ix1 q) := by
  show StableHlo.after hostOps0 (W0 m ρ c) (Proc.devRef .tc main_v0) (ix2 (0 : Fin 1) q) = _
  after_results
  exact shapeCast_a_1a_apply _ _ 0 q

/-! ## Region 1 (the vehicle encoder) -/

theorem V3_arg1 (c : Dev nD) : V3 m ρ c main_arg1 = m ((c : Thread nD τ).loc main_arg1) :=
  W3_keep m ρ c main_arg1 (by decide) (by not_written hostOps0) (by not_written hostOps1)
theorem V3_arg9 (c : Dev nD) : V3 m ρ c main_arg9 = m ((c : Thread nD τ).loc main_arg9) :=
  W3_keep m ρ c main_arg9 (by decide) (by not_written hostOps0) (by not_written hostOps1)
theorem V3_v2 (c : Dev nD) (q : Fin 16) :
    (V3 m ρ c main_v2 : S1x16.Idx → Elt F .f32) (ix2 (0 : Fin 1) q) = (m ((c : Thread nD τ).loc main_arg10) : S16.Idx → Elt F .f32) (ix1 q) := by
  show StableHlo.after hostOps1 (W2 m ρ c) (Proc.devRef .tc main_v2) (ix2 (0 : Fin 1) q) = _
  after_results
  rw [W2_keep m ρ c main_arg10 (by decide) (by not_written hostOps0)]
  exact shapeCast_a_1a_apply _ _ 0 q

/-! ## Region 2 (the passenger encoder) -/

theorem V5_arg2 (c : Dev nD) : V5 m ρ c main_arg2 = m ((c : Thread nD τ).loc main_arg2) :=
  W5_keep m ρ c main_arg2 (by decide) (by decide) (by not_written hostOps0) (by not_written hostOps1) (by not_written hostOps2)
theorem V5_arg11 (c : Dev nD) : V5 m ρ c main_arg11 = m ((c : Thread nD τ).loc main_arg11) :=
  W5_keep m ρ c main_arg11 (by decide) (by decide) (by not_written hostOps0) (by not_written hostOps1) (by not_written hostOps2)
theorem V5_v4 (c : Dev nD) (q : Fin 16) :
    (V5 m ρ c main_v4 : S1x16.Idx → Elt F .f32) (ix2 (0 : Fin 1) q) = (m ((c : Thread nD τ).loc main_arg12) : S16.Idx → Elt F .f32) (ix1 q) := by
  show StableHlo.after hostOps2 (W4 m ρ c) (Proc.devRef .tc main_v4) (ix2 (0 : Fin 1) q) = _
  after_results
  rw [W4_keep m ρ c main_arg12 (by decide) (by decide) (by not_written hostOps0) (by not_written hostOps1)]
  exact shapeCast_a_1a_apply _ _ 0 q

/-! ## Region 3 (the actor) -/

theorem V7_arg13 (c : Dev nD) : V7 m ρ c main_arg13 = m ((c : Thread nD τ).loc main_arg13) :=
  W7_keep m ρ c main_arg13 (by decide) (by decide) (by decide) (by not_written hostOps0) (by not_written hostOps1) (by not_written hostOps2)
    (by not_written hostOps3)
theorem V7_arg15 (c : Dev nD) : V7 m ρ c main_arg15 = m ((c : Thread nD τ).loc main_arg15) :=
  W7_keep m ρ c main_arg15 (by decide) (by decide) (by decide) (by not_written hostOps0) (by not_written hostOps1) (by not_written hostOps2)
    (by not_written hostOps3)
theorem V7_arg17 (c : Dev nD) : V7 m ρ c main_arg17 = m ((c : Thread nD τ).loc main_arg17) :=
  W7_keep m ρ c main_arg17 (by decide) (by decide) (by decide) (by not_written hostOps0) (by not_written hostOps1) (by not_written hostOps2)
    (by not_written hostOps3)

theorem V7_v44 (c : Dev nD) (q : Fin 64) :
    (V7 m ρ c main_v44 : S1x64.Idx → Elt F .f32) (ix2 (0 : Fin 1) q) = (m ((c : Thread nD τ).loc main_arg14) : S64.Idx → Elt F .f32) (ix1 q) := by
  show StableHlo.after hostOps3 (W6 m ρ c) (Proc.devRef .tc main_v44) (ix2 (0 : Fin 1) q) = _
  after_results_simp
  rw [W6_keep m ρ c main_arg14 (by decide) (by decide) (by decide) (by not_written hostOps0) (by not_written hostOps1) (by not_written hostOps2)]
  exact shapeCast_a_1a_apply _ _ 0 q
theorem V7_v45 (c : Dev nD) (q : Fin 64) :
    (V7 m ρ c main_v45 : S1x64.Idx → Elt F .f32) (ix2 (0 : Fin 1) q) = (m ((c : Thread nD τ).loc main_arg16) : S64.Idx → Elt F .f32) (ix1 q) := by
  show StableHlo.after hostOps3 (W6 m ρ c) (Proc.devRef .tc main_v45) (ix2 (0 : Fin 1) q) = _
  after_results_simp
  rw [W6_keep m ρ c main_arg16 (by decide) (by decide) (by decide) (by not_written hostOps0) (by not_written hostOps1) (by not_written hostOps2)]
  exact shapeCast_a_1a_apply _ _ 0 q
theorem V7_v46 (c : Dev nD) (q : Fin 1) :
    (V7 m ρ c main_v46 : S1x1.Idx → Elt F .f32) (ix2 (0 : Fin 1) q) = (m ((c : Thread nD τ).loc main_arg18) : S1.Idx → Elt F .f32) (ix1 q) := by
  show StableHlo.after hostOps3 (W6 m ρ c) (Proc.devRef .tc main_v46) (ix2 (0 : Fin 1) q) = _
  after_results_simp
  rw [W6_keep m ρ c main_arg18 (by decide) (by decide) (by decide) (by not_written hostOps0) (by not_written hostOps1) (by not_written hostOps2)]
  exact shapeCast_a_1a_apply _ _ 0 q

/-- The three encoders' result arrays, when the host operations in front of the actor read them, hold what their own
    regions left. -/
theorem W6_v1 (c : Dev nD) : W6 m ρ c (Proc.devRef .tc main_v1) = (dat0 (V1 m ρ) c).arrAt 3 cfg0.N :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem _ _ (by not_written hostOps2)
    _ = W3 m ρ c (Proc.devRef .tc main_v1) := W4_of_ne m ρ c main_v1 (by decide)
    _ = W2 m ρ c (Proc.devRef .tc main_v1) := StableHlo.after_of_forall_not_mem _ _ (by not_written hostOps1)
    _ = (dat0 (V1 m ρ) c).arrAt 3 cfg0.N := W2_arr m ρ c 3
theorem W6_v3 (c : Dev nD) : W6 m ρ c (Proc.devRef .tc main_v3) = (dat1 (V3 m ρ) c).arrAt 3 cfg1.N :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem _ _ (by not_written hostOps2)
    _ = (dat1 (V3 m ρ) c).arrAt 3 cfg1.N := W4_arr m ρ c 3
theorem W6_v5 (c : Dev nD) : W6 m ρ c (Proc.devRef .tc main_v5) = (dat2 (V5 m ρ) c).arrAt 3 cfg2.N :=
  W6_arr m ρ c 3

/-- THE JOINED ROWS the actor reads are the plain program's pooling of what the buffers held when the host operations
    in front of the actor began: the three encoders' result arrays and the four edge lists. (A joined row is a pair of
    pieces; each piece is read back through the operations separately.) -/
theorem joined_rows_W (c : Dev nD) :
    V7 m ρ c main_v43 = Cert.Bridge.pooled (W6 m ρ c (Proc.devRef .tc main_v1)) (W6 m ρ c (Proc.devRef .tc main_v3)) (W6 m ρ c (Proc.devRef .tc main_v5))
      (W6 m ρ c (Proc.devRef .tc main_arg3)) (W6 m ρ c (Proc.devRef .tc main_arg4)) (W6 m ρ c (Proc.devRef .tc main_arg5)) (W6 m ρ c (Proc.devRef .tc main_arg6)) := by
  show StableHlo.after hostOps3 (W6 m ρ c) (Proc.devRef .tc main_v43) = _
  generalize W6 m ρ c = W
  unfold Cert.Bridge.pooled
  after_results_simp
  refine congrArg₂ (fun a b => concatenate S200000x48 1 [⟨S200000x16, a⟩, ⟨S200000x32, b⟩] concatenates_S200000x16_S200000x32_S200000x48_d1) ?_ ?_
  · after_results_simp
  · after_results_simp
    refine congrArg (fun z => (Host.divf (F := F) (Host.scatterAdd (F := F) scatter_S200000x32_S4000000x1_S4000000x32_1_0_0_1 (broadcastInDim S200000x32 ![] bcast_S_S200000x32 (constant (F := F) S_ .f32 0x00000000#32)) (broadcastInDim S4000000x1 ![0] bcast_S4000000_S4000000x1_0 (W (Proc.devRef .tc main_arg5))) (Host.gather gather_S50000x32_S4000000x1_S4000000x32_1_0_n_n_0_1_132 z (broadcastInDim S4000000x1 ![0] bcast_S4000000_S4000000x1_0 (select (cmpi .slt (W (Proc.devRef .tc main_arg6)) (broadcastInDim S4000000 ![] bcast_S_S4000000 (constantI S_ 32 0#32))) (addi (W (Proc.devRef .tc main_arg6)) (broadcastInDim S4000000 ![] bcast_S_S4000000 (constantI S_ 32 50000#32))) (W (Proc.devRef .tc main_arg6)))))) (broadcastInDim S200000x32 ![0, 1] bcast_S200000x1_S200000x32_0_1 (maximumf (F := F) (Host.scatterAdd (F := F) scatter_S200000x1_S4000000x1_S4000000x1_1_0_0_1 (broadcastInDim S200000x1 ![] bcast_S_S200000x1 (constant (F := F) S_ .f32 0x00000000#32)) (broadcastInDim S4000000x1 ![0] bcast_S4000000_S4000000x1_0 (W (Proc.devRef .tc main_arg5))) (broadcastInDim S4000000x1 ![] bcast_S_S4000000x1 (constant (F := F) S_ .f32 0x3F800000#32))) (broadcastInDim S200000x1 ![] bcast_S_S200000x1 (constant (F := F) S_ .f32 0x3F800000#32)))))) ?_
    refine congrArg₂ (fun a b => concatenate S50000x32 1 [⟨S50000x16, a⟩, ⟨S50000x16, b⟩] concatenates_S50000x16_S50000x16_S50000x32_d1) ?_ ?_
    · after_results_simp
    · after_results_simp
      rfl

/-- THE JOINED ROWS the actor reads are the plain program's pooling of what the three encoder regions left and of the
    four edge lists. -/
theorem joined_rows (c : Dev nD) :
    V7 m ρ c main_v43 = Cert.Bridge.pooled ((dat0 (V1 m ρ) c).arrAt 3 cfg0.N) ((dat1 (V3 m ρ) c).arrAt 3 cfg1.N) ((dat2 (V5 m ρ) c).arrAt 3 cfg2.N)
      (m ((c : Thread nD τ).loc main_arg3)) (m ((c : Thread nD τ).loc main_arg4)) (m ((c : Thread nD τ).loc main_arg5)) (m ((c : Thread nD τ).loc main_arg6)) := by
  rw [joined_rows_W, W6_v1, W6_v3, W6_v5,
    W6_keep m ρ c main_arg3 (by decide) (by decide) (by decide) (by not_written hostOps0) (by not_written hostOps1) (by not_written hostOps2),
    W6_keep m ρ c main_arg4 (by decide) (by decide) (by decide) (by not_written hostOps0) (by not_written hostOps1) (by not_written hostOps2),
    W6_keep m ρ c main_arg5 (by decide) (by decide) (by decide) (by not_written hostOps0) (by not_written hostOps1) (by not_written hostOps2),
    W6_keep m ρ c main_arg6 (by decide) (by decide) (by decide) (by not_written hostOps0) (by not_written hostOps1) (by not_written hostOps2)]

end Cert.KernelIdeal.Boundary

end
-- ==== Proof.RefIs.lean ====
/-
  The plain program's run ends with its result at the composition of the encoders, the pooling and the actor
  (the run's composed term is that composition written out).
-/
import proofs.«143015_j46454366273712_1_alg».proof.Proof.Gen.ReferenceIdeal.Run
import proofs.«143015_j46454366273712_1_alg».proof.Proof.Spec

noncomputable section

namespace Cert.Bridge

open Cert.ReferenceIdeal Cert.ReferenceIdeal.Gen Idealize.ShloMosaic Idealize.ShloMosaic.TcCoe Idealize.SL.Sem

variable {F : FTy → Type} [FloatOps F]

/-- The plain program of a memory `m`: encoders, pooling, actor. -/
def plain (m : (ℓ : Loc nD τ sig) → Buf (Elt F) ℓ) (c : Dev nD) : Buf (Elt F) ((c.tc : Thread nD τ).loc main_v66) :=
  actor (pooled (encReq (m ((c.tc : Thread nD τ).loc main_arg0)) (m ((c.tc : Thread nD τ).loc main_arg7)) (m ((c.tc : Thread nD τ).loc main_arg8))) (encVeh (m ((c.tc : Thread nD τ).loc main_arg1)) (m ((c.tc : Thread nD τ).loc main_arg9)) (m ((c.tc : Thread nD τ).loc main_arg10))) (encPas (m ((c.tc : Thread nD τ).loc main_arg2)) (m ((c.tc : Thread nD τ).loc main_arg11)) (m ((c.tc : Thread nD τ).loc main_arg12)))
      (m ((c.tc : Thread nD τ).loc main_arg3)) (m ((c.tc : Thread nD τ).loc main_arg4)) (m ((c.tc : Thread nD τ).loc main_arg5)) (m ((c.tc : Thread nD τ).loc main_arg6)))
    (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

theorem ref_is (m : (ℓ : Loc nD τ sig) → Buf (Elt F) ℓ) (c : Dev nD) :
    Cert.ReferenceIdeal.Value.res_main_v66 m c = plain m c := rfl

end Cert.Bridge

end
-- ==== Proof.lean ====
/-
  The certificate of the graph actor: a kernel program of four tiled regions (three node encoders and the actor, each
  `tanh (x · W + b)` layers on the matrix unit over tiles of rows) with the edge pooling between them left to the host,
  against the plain program that computes the same layers by whole-array products.

  Over the extended reals narrowing a float changes nothing and a matrix unit's product into zeros is the textbook sum,
  so each region leaves in its result array exactly the plain program's layer of the arrays it found (the four region
  modules, all by the row-by-row lemma). The host operations between the regions are the plain program's own pooling,
  operation for operation, applied to those arrays (the boundary module). Hence the kernel program's result is the
  plain program's composed term of the arguments, and from memories that agree on the arguments the two runs end equal
  (`algebraic`). The three frames are the programs' runs with the values forgotten; no rewrite was applied when the
  kernel program was idealized, so `preserves` asks nothing.
-/
import proofs.«143015_j46454366273712_1_alg».proof.Defs
import proofs.«143015_j46454366273712_1_alg».proof.Proof.Gen.Kernel
import proofs.«143015_j46454366273712_1_alg».proof.Proof.KernelFrameP
import proofs.«143015_j46454366273712_1_alg».proof.Proof.Gen.KernelIdeal
import proofs.«143015_j46454366273712_1_alg».proof.Proof.KernelIdealRun
import proofs.«143015_j46454366273712_1_alg».proof.Proof.EncReqValue
import proofs.«143015_j46454366273712_1_alg».proof.Proof.EncVehValue
import proofs.«143015_j46454366273712_1_alg».proof.Proof.EncPasValue
import proofs.«143015_j46454366273712_1_alg».proof.Proof.ActorValue
import proofs.«143015_j46454366273712_1_alg».proof.Proof.Boundary
import proofs.«143015_j46454366273712_1_alg».proof.Proof.Gen.ReferenceIdeal
import proofs.«143015_j46454366273712_1_alg».proof.Proof.Gen.ReferenceIdeal.Run
import proofs.«143015_j46454366273712_1_alg».proof.Proof.RefIs
import proofs.«143015_j46454366273712_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem
open Cert.Bridge

section KernelValue

open Cert.KernelIdeal Cert.KernelIdeal.Gen Cert.KernelIdeal.GenP Cert.KernelIdeal.Boundary

variable (m : (ℓ : Loc Cert.KernelIdeal.nD Cert.KernelIdeal.τ Cert.KernelIdeal.sig) → Buf (Elt Ideal) ℓ)
  (ρ : Dev Cert.KernelIdeal.nD → PrngReg)

/-- The plain program's composition of encoders, pooling and actor, of the kernel program's argument arrays. -/
def kplain (c : Dev Cert.KernelIdeal.nD) : (⟨Cert.ReferenceIdeal.S200000x1, .f32⟩ : BufTy).Contents (Elt Ideal) :=
  actor (F := Ideal) (pooled (encReq (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (encVeh (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (encPas (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))

/-- The joined rows the actor region finds are the pooling of the three encoders of the argument tables. -/
theorem joined (c : Dev Cert.KernelIdeal.nD) :
    Actor.xarr (V7 m ρ) c = pooled (F := Ideal) (encReq (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (encVeh (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (encPas (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  show V7 m ρ c main_v43 = _
  rw [joined_rows m ρ c,
    EncReq.final (V1 m ρ) c (m ((c.tc : Thread Cert.KernelIdeal.nD Cert.KernelIdeal.τ).loc Cert.KernelIdeal.main_arg8)) (V1_v0 m ρ c),
    EncVeh.final (V3 m ρ) c (m ((c.tc : Thread Cert.KernelIdeal.nD Cert.KernelIdeal.τ).loc Cert.KernelIdeal.main_arg10)) (V3_v2 m ρ c),
    EncPas.final (V5 m ρ) c (m ((c.tc : Thread Cert.KernelIdeal.nD Cert.KernelIdeal.τ).loc Cert.KernelIdeal.main_arg12)) (V5_v4 m ρ c),
    show EncReq.xarr (V1 m ρ) c = (m ((c.tc : Thread Cert.KernelIdeal.nD Cert.KernelIdeal.τ).loc Cert.KernelIdeal.main_arg0)) from V1_arg0 m ρ c, show EncReq.warr (V1 m ρ) c = (m ((c.tc : Thread Cert.KernelIdeal.nD Cert.KernelIdeal.τ).loc Cert.KernelIdeal.main_arg7)) from V1_arg7 m ρ c,
    show EncVeh.xarr (V3 m ρ) c = (m ((c.tc : Thread Cert.KernelIdeal.nD Cert.KernelIdeal.τ).loc Cert.KernelIdeal.main_arg1)) from V3_arg1 m ρ c, show EncVeh.warr (V3 m ρ) c = (m ((c.tc : Thread Cert.KernelIdeal.nD Cert.KernelIdeal.τ).loc Cert.KernelIdeal.main_arg9)) from V3_arg9 m ρ c,
    show EncPas.xarr (V5 m ρ) c = (m ((c.tc : Thread Cert.KernelIdeal.nD Cert.KernelIdeal.τ).loc Cert.KernelIdeal.main_arg2)) from V5_arg2 m ρ c, show EncPas.warr (V5 m ρ) c = (m ((c.tc : Thread Cert.KernelIdeal.nD Cert.KernelIdeal.τ).loc Cert.KernelIdeal.main_arg11)) from V5_arg11 m ρ c]

/-- THE KERNEL PROGRAM'S RESULT: the last boundary's contents at the result buffer are the plain composition. -/
theorem kernel_value (c : Dev Cert.KernelIdeal.nD) : W8 m ρ c (Proc.devRef .tc main_v47) = kplain m c := by
  refine (W8_arr m ρ c 7).trans ?_
  rw [Actor.final (V7 m ρ) c (m ((c.tc : Thread Cert.KernelIdeal.nD Cert.KernelIdeal.τ).loc Cert.KernelIdeal.main_arg14)) (m ((c.tc : Thread Cert.KernelIdeal.nD Cert.KernelIdeal.τ).loc Cert.KernelIdeal.main_arg16)) (m ((c.tc : Thread Cert.KernelIdeal.nD Cert.KernelIdeal.τ).loc Cert.KernelIdeal.main_arg18)) (V7_v44 m ρ c) (V7_v45 m ρ c) (V7_v46 m ρ c), joined m ρ c,
    show Actor.w1arr (V7 m ρ) c = (m ((c.tc : Thread Cert.KernelIdeal.nD Cert.KernelIdeal.τ).loc Cert.KernelIdeal.main_arg13)) from V7_arg13 m ρ c, show Actor.w2arr (V7 m ρ) c = (m ((c.tc : Thread Cert.KernelIdeal.nD Cert.KernelIdeal.τ).loc Cert.KernelIdeal.main_arg15)) from V7_arg15 m ρ c,
    show Actor.w3arr (V7 m ρ) c = (m ((c.tc : Thread Cert.KernelIdeal.nD Cert.KernelIdeal.τ).loc Cert.KernelIdeal.main_arg17)) from V7_arg17 m ρ c]
  rfl

end KernelValue

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at the plain composition of the arguments. -/
theorem algebraic : Cert.algebraic_KernelIdeal_ReferenceIdeal := by
  intro m ρ m' ρ' _ hagree
  refine ⟨fun c => kplain m c, ?_, ?_⟩
  · exact (θ_run Cert.KernelIdeal.defs _ _).mono (fun _ h c => ⟨(h c).1.trans (kernel_value m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.Bridge.ref_is]
    unfold Cert.Bridge.plain kplain
    rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
